-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x128 .f32) (main_arg3 : FVec F S128 .f32) (main_arg4 : FVec F S128x1 .f32) (main_arg5 : FVec F S1 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S1x128 : Shape := ⟨2, ![1, 128]⟩
abbrev S1x1 : Shape := ⟨2, ![1, 1]⟩
abbrev S50000x257 : Shape := ⟨2, ![50000, 257]⟩
abbrev S2000x256 : Shape := ⟨2, ![2000, 256]⟩
abbrev S2000x257 : Shape := ⟨2, ![2000, 257]⟩
abbrev S2000x128 : Shape := ⟨2, ![2000, 128]⟩
abbrev S2000x1 : Shape := ⟨2, ![2000, 1]⟩
abbrev S_ : Shape := ⟨0, ![]⟩
abbrev S800000x1 : Shape := ⟨2, ![800000, 1]⟩
abbrev S800000x257 : Shape := ⟨2, ![800000, 257]⟩
abbrev S50000x1 : Shape := ⟨2, ![50000, 1]⟩

abbrev nBuf : Space → Nat
  | .hbm => 40
  | .vmem => 8
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S1x128, .f32⟩
  | .hbm, ⟨11, _⟩ => ⟨S1x1, .f32⟩
  | .hbm, ⟨12, _⟩ => ⟨S50000x257, .f32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x257, .f32⟩
  | .hbm, ⟨22, _⟩ => ⟨S_, .f32⟩
  | .hbm, ⟨23, _⟩ => ⟨S50000x257, .f32⟩
  | .hbm, ⟨24, _⟩ => ⟨S800000x1, .i32⟩
  | .hbm, ⟨25, _⟩ => ⟨S50000x257, .f32⟩
  | .hbm, ⟨26, _⟩ => ⟨S50000x256, .f32⟩
  | .hbm, ⟨27, _⟩ => ⟨S50000x1, .f32⟩
  | .hbm, ⟨28, _⟩ => ⟨S_, .f32⟩
  | .hbm, ⟨29, _⟩ => ⟨S50000x1, .f32⟩
  | .hbm, ⟨30, _⟩ => ⟨S50000x1, .i1⟩
  | .hbm, ⟨31, _⟩ => ⟨S_, .f32⟩
  | .hbm, ⟨32, _⟩ => ⟨S50000x1, .f32⟩
  | .hbm, ⟨33, _⟩ => ⟨S50000x1, .f32⟩
  | .hbm, ⟨34, _⟩ => ⟨S50000x256, .f32⟩
  | .hbm, ⟨35, _⟩ => ⟨S50000x256, .f32⟩
  | .hbm, ⟨36, _⟩ => ⟨S_, .f32⟩
  | .hbm, ⟨37, _⟩ => ⟨S50000x256, .f32⟩
  | .hbm, ⟨38, _⟩ => ⟨S50000x256, .i1⟩
  | .hbm, ⟨39, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S1x128, .f32⟩
  | .local _ .vmem, ⟨4, _⟩ => ⟨S128x1, .f32⟩
  | .local _ .vmem, ⟨5, _⟩ => ⟨S1x1, .f32⟩
  | .local _ .vmem, ⟨6, _⟩ => ⟨S2000x257, .f32⟩
  | .local _ .vmem, ⟨7, _⟩ => ⟨S2000x257, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_call0_v0 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x257 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S128_S1x128 : S128.ShapeCasts S1x128
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  broadcasts_S2000x1_S2000x256 : S2000x1.Broadcasts S2000x256
  inb_S2000x257_S2000x256_0_0 : ∀ a, (![0, 0] : Fin 2 → Nat) a + S2000x256.size a ≤ S2000x257.size a
  inb_S2000x257_S2000x1_0_256 : ∀ a, (![0, 256] : Fin 2 → Nat) a + S2000x1.size a ≤ S2000x257.size a
  h_S2000x1 : 0 < S2000x1.numel
  bcast_S_S800000 : S_.BroadcastsInDim S800000 (![] : Fin 0 → Fin S800000.rank)
  bcast_S800000_S800000x1_0 : S800000.BroadcastsInDim S800000x1 (![0] : Fin 1 → Fin S800000x1.rank)
  bcast_S_S50000x257 : S_.BroadcastsInDim S50000x257 (![] : Fin 0 → Fin S50000x257.rank)
  slices_S50000x257_S50000x256_0_0 : S50000x257.Slices ![0, 0] S50000x256
  slices_S50000x257_S50000x1_0_256 : S50000x257.Slices ![0, 256] S50000x1
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  dot_S2000x256_S256x128_S2000x128_1_0_0_1_n_n_wf : DotDims.WF S2000x256 S256x128 S2000x128 [1] [0] [0] [1] [] []
  dot_S2000x128_S128x1_S2000x1_1_0_0_1_n_n_wf : DotDims.WF S2000x128 S128x1 S2000x1 [1] [0] [0] [1] [] []
  gather_S50000x257_S800000x1_S800000x257_1_0_n_n_0_1_1257_wf : GatherDims.WF S50000x257 S800000x1 S800000x257 [1] [0] [] [0] [] 1 ![1, 257]
  scatter_S50000x257_S800000x1_S800000x257_1_0_0_1_wf : ScatterDims.WF S50000x257 S800000x1 S800000x257 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x1.size a ≤ S128x1.size a
  hwx0_3 : ∀ i : grid0.Coords, EltTy.bits .f32 = 32 ∨ (Rect.block (s := S128x1) S128x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x257.size a ≤ S50000x257.size a
  hwx0_5 : ∀ i : grid0.Coords, EltTy.bits .f32 = 32 ∨ (Rect.block (s := S50000x257) S2000x257.size (cc0_transform_5 i) (hinb0_5 i)).WholeWords (EltTy.packing .f32)

variable [Facts₀]

def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def dot_S2000x128_S128x1_S2000x1_1_0_0_1_n_n : DotDims S2000x128 S128x1 S2000x1 where
  lhsContracting := [1]
  rhsContracting := [0]
  lhsNonContracting := [0]
  rhsNonContracting := [1]
  lhsBatch := []
  rhsBatch := []
  wf := dot_S2000x128_S128x1_S2000x1_1_0_0_1_n_n_wf
def gather_S50000x257_S800000x1_S800000x257_1_0_n_n_0_1_1257 : GatherDims S50000x257 S800000x1 S800000x257 where
  offsetDims := [1]
  collapsedSliceDims := [0]
  operandBatchingDims := []
  startIndicesBatchingDims := []
  startIndexMap := [0]
  indexVectorDim := 1
  sliceSizes := ![1, 257]
  wf := gather_S50000x257_S800000x1_S800000x257_1_0_n_n_0_1_1257_wf
def scatter_S50000x257_S800000x1_S800000x257_1_0_0_1 : ScatterDims S50000x257 S800000x1 S800000x257 where
  updateWindowDims := [1]
  insertedWindowDims := [0]
  scatterDimsToOperandDims := [0]
  indexVectorDim := 1
  wf := scatter_S50000x257_S800000x1_S800000x257_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S2000x257.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S128x1 : Shape := ⟨2, ![128, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S800000x128 : Shape := ⟨2, ![800000, 128]⟩
abbrev S1x128 : Shape := ⟨2, ![1, 128]⟩
abbrev S1x1 : Shape := ⟨2, ![1, 1]⟩
abbrev S50000x1 : Shape := ⟨2, ![50000, 1]⟩

abbrev nBuf : Space → Nat
  | .hbm => 61
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x256, .f32⟩
  | .hbm, ⟨19, _⟩ => ⟨S800000x128, .f32⟩
  | .hbm, ⟨20, _⟩ => ⟨S1x128, .f32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S800000x1, .f32⟩
  | .hbm, ⟨27, _⟩ => ⟨S1x1, .f32⟩
  | .hbm, ⟨28, _⟩ => ⟨S800000x1, .f32⟩
  | .hbm, ⟨29, _⟩ => ⟨S800000x1, .f32⟩
  | .hbm, ⟨30, _⟩ => ⟨S800000x1, .f32⟩
  | .hbm, ⟨31, _⟩ => ⟨S800000x1, .f32⟩
  | .hbm, ⟨32, _⟩ => ⟨S_, .f32⟩
  | .hbm, ⟨33, _⟩ => ⟨S800000x1, .f32⟩
  | .hbm, ⟨34, _⟩ => ⟨S800000x1, .f32⟩
  | .hbm, ⟨35, _⟩ => ⟨S_, .f32⟩
  | .hbm, ⟨36, _⟩ => ⟨S800000x1, .f32⟩
  | .hbm, ⟨37, _⟩ => ⟨S800000x1, .f32⟩
  | .hbm, ⟨38, _⟩ => ⟨S800000x256, .f32⟩
  | .hbm, ⟨39, _⟩ => ⟨S800000x256, .f32⟩
  | .hbm, ⟨40, _⟩ => ⟨S_, .f32⟩
  | .hbm, ⟨41, _⟩ => ⟨S50000x256, .f32⟩
  | .hbm, ⟨42, _⟩ => ⟨S800000x1, .i32⟩
  | .hbm, ⟨43, _⟩ => ⟨S50000x256, .f32⟩
  | .hbm, ⟨44, _⟩ => ⟨S_, .f32⟩
  | .hbm, ⟨45, _⟩ => ⟨S50000x1, .f32⟩
  | .hbm, ⟨46, _⟩ => ⟨S800000x1, .i32⟩
  | .hbm, ⟨47, _⟩ => ⟨S50000x1, .f32⟩
  | .hbm, ⟨48, _⟩ => ⟨S_, .f32⟩
  | .hbm, ⟨49, _⟩ => ⟨S50000x1, .f32⟩
  | .hbm, ⟨50, _⟩ => ⟨S50000x1, .i1⟩
  | .hbm, ⟨51, _⟩ => ⟨S_, .f32⟩
  | .hbm, ⟨52, _⟩ => ⟨S50000x1, .f32⟩
  | .hbm, ⟨53, _⟩ => ⟨S50000x1, .f32⟩
  | .hbm, ⟨54, _⟩ => ⟨S50000x256, .f32⟩
  | .hbm, ⟨55, _⟩ => ⟨S50000x256, .f32⟩
  | .hbm, ⟨56, _⟩ => ⟨S_, .f32⟩
  | .hbm, ⟨57, _⟩ => ⟨S_, .f32⟩
  | .hbm, ⟨58, _⟩ => ⟨S50000x256, .i1⟩
  | .hbm, ⟨59, _⟩ => ⟨S50000x256, .f32⟩
  | .hbm, ⟨60, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst : Ref sig .tc := ⟨.hbm, 32, rfl⟩
abbrev main_v22 : Ref sig .tc := ⟨.hbm, 33, rfl⟩
abbrev main_v23 : Ref sig .tc := ⟨.hbm, 34, rfl⟩
abbrev main_cst_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v40 : Ref sig .tc := ⟨.hbm, 60, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  gather_S50000x256_S800000x1_S800000x256_1_0_n_n_0_1_1256_wf : GatherDims.WF S50000x256 S800000x1 S800000x256 [1] [0] [] [0] [] 1 ![1, 256]
  dot_S800000x256_S256x128_S800000x128_1_0_0_1_n_n_wf : DotDims.WF S800000x256 S256x128 S800000x128 [1] [0] [0] [1] [] []
  dot_S800000x128_S128x1_S800000x1_1_0_0_1_n_n_wf : DotDims.WF S800000x128 S128x1 S800000x1 [1] [0] [0] [1] [] []
  scatter_S50000x256_S800000x1_S800000x256_1_0_0_1_wf : ScatterDims.WF S50000x256 S800000x1 S800000x256 [1] [0] [0] 1
  scatter_S50000x1_S800000x1_S800000x1_1_0_0_1_wf : ScatterDims.WF S50000x1 S800000x1 S800000x1 [1] [0] [0] 1

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x1_S800000x1_1_0_0_1_n_n : DotDims S800000x128 S128x1 S800000x1 where
  lhsContracting := [1]
  rhsContracting := [0]
  lhsNonContracting := [0]
  rhsNonContracting := [1]
  lhsBatch := []
  rhsBatch := []
  wf := dot_S800000x128_S128x1_S800000x1_1_0_0_1_n_n_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

class Facts : Prop extends Facts₀ where

variable [Facts]
-- ==== Proof.EdgeStage.lean ====
import proofs.«179201_j29317446762861_1_alg».proof.KernelIdeal
import proofs.«179201_j29317446762861_1_alg».proof.Proof.Gen.KernelIdeal
import Idealize.ShloMosaic.PureOps.Ideal.Laws

/-! # The edge stage of the kernel program, as functions

After the region has written the node table, the host reads row `col[e]` of the table for every edge `e` (a negative
`col` is wrapped by `+ N` first), sums the rows of the edges with the same destination `row[e]` into a `[N, 257]` array,
splits that array into its `256` feature columns (the numerator) and its last column (the denominator), and returns
`numerator / max denominator ε` where the denominator is positive and `0` elsewhere. This file names those stages as
functions of the table and of the edge list. -/

noncomputable section

namespace Cert.KernelIdeal.Tail

open Cert.KernelIdeal Cert.KernelIdeal.Gen Idealize.ShloMosaic

/-- Row `r` of the edge list as a vector of `E` words. -/
def edgeRow0 (ei : IVec S2x800000 32) : IVec S800000 32 :=
  shapeCast S800000 (extractStridedSlice S1x800000 ![0, 0] ei slices_S2x800000_S1x800000_0_0) shapeCasts_S1x800000_S800000
def edgeRow1 (ei : IVec S2x800000 32) : IVec S800000 32 :=
  shapeCast S800000 (extractStridedSlice S1x800000 ![1, 0] ei slices_S2x800000_S1x800000_1_0) shapeCasts_S1x800000_S800000

/-- The destinations, as a column of start indices. -/
def dstIdxOf (dst : IVec S800000 32) : IVec S800000x1 32 :=
  broadcastInDim S800000x1 ![0] bcast_S800000_S800000x1_0 dst

/-- The sources, a negative one wrapped by `+ 50000`, as a column of start indices. -/
def srcIdxOf (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32)))
      src)

/-- The segment sums: into row `v`, the table's rows `src[e]` over the edges `e` with `dst[e] = v`. -/
def sumsOf (tbl : FVec Ideal S50000x257 .f32) (dst src : IVec S800000 32) : FVec Ideal S50000x257 .f32 :=
  Host.scatterAdd scatter_S50000x257_S800000x1_S800000x257_1_0_0_1
    (broadcastInDim S50000x257 ![] bcast_S_S50000x257 (constant (F := Ideal) S_ .f32 0x00000000#32))
    (dstIdxOf dst)
    (Host.gather gather_S50000x257_S800000x1_S800000x257_1_0_n_n_0_1_1257 tbl (srcIdxOf src))

/-- The feature columns of the sums. -/
def numer (s : FVec Ideal S50000x257 .f32) : FVec Ideal S50000x256 .f32 :=
  extractStridedSlice S50000x256 ![0, 0] s slices_S50000x257_S50000x256_0_0
/-- The weight column of the sums. -/
def denom (s : FVec Ideal S50000x257 .f32) : FVec Ideal S50000x1 .f32 :=
  extractStridedSlice S50000x1 ![0, 256] s slices_S50000x257_S50000x1_0_256

/-- The weighted mean from a numerator and a denominator: `num / max den ε` where `den > 0`, else `0`. -/
def mean (num : FVec Ideal S50000x256 .f32) (den : FVec Ideal S50000x1 .f32) : FVec Ideal S50000x256 .f32 :=
  select
    (broadcastInDim S50000x256 ![0, 1] bcast_S50000x1_S50000x256_0_1
      (cmpf .ogt den (broadcastInDim S50000x1 ![] bcast_S_S50000x1 (constant (F := Ideal) S_ .f32 0x00000000#32))))
    (Host.divf num
      (broadcastInDim S50000x256 ![0, 1] bcast_S50000x1_S50000x256_0_1
        (maximumf den (broadcastInDim S50000x1 ![] bcast_S_S50000x1 (constant (F := Ideal) S_ .f32 0x2B8CBCCC#32)))))
    (broadcastInDim S50000x256 ![] bcast_S_S50000x256 (constant (F := Ideal) S_ .f32 0x00000000#32))

/-- The program's result as a function of the table and the two rows of the edge list. -/
def outOf (tbl : FVec Ideal S50000x257 .f32) (dst src : IVec S800000 32) : FVec Ideal S50000x256 .f32 :=
  mean (numer (sumsOf tbl dst src)) (denom (sumsOf tbl dst src))

/-- The same of the edge list itself. -/
def out (tbl : FVec Ideal S50000x257 .f32) (ei : IVec S2x800000 32) : FVec Ideal S50000x256 .f32 :=
  outOf tbl (edgeRow0 ei) (edgeRow1 ei)

end Cert.KernelIdeal.Tail

end
-- ==== Proof.Tail.lean ====
import proofs.«179201_j29317446762861_1_alg».proof.Proof.Gen.KernelIdeal.Frame
import proofs.«179201_j29317446762861_1_alg».proof.Proof.EdgeStage
import Idealize.ShloMosaic.Lib.StableHlo.Run
import Idealize.ShloMosaic.PureOps.Ideal.Laws

/-! # The edge stage of the kernel program: gather, segment sums, quotient

After the region has written the node table, the host reads row `col[e]` of the table for every edge `e` (a negative
`col` is wrapped by `+ N` first), sums the rows of the edges with the same destination `row[e]` into a `[N, 257]` array,
splits that array into its `256` feature columns (the numerator) and its last column (the denominator), and returns
`numerator / max denominator ε` where the denominator is positive and `0` elsewhere. This file names those stages as
functions of the table and of the edge list (EdgeStage.lean); this file shows that the program's result buffer holds their composition. -/

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

/-- The contents after two stretches of lines are those after the second from those after the first. -/
theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih (op.result W)

set_option maxHeartbeats 2000000 in
/-- The first stretch after the region, from ANY contents: the sign test of the denominator, -/
theorem lines_test (W : Valuation τ sig (Elt Ideal)) :
    StableHlo.after hostOps1 W (Proc.devRef .tc main_v20)
      = cmpf .ogt (denom (sumsOf (W (Proc.devRef .tc main_v6)) (W (Proc.devRef .tc main_v1)) (W (Proc.devRef .tc main_v3))))
          (broadcastInDim S50000x1 ![] bcast_S_S50000x1 (constant (F := Ideal) S_ .f32 0x00000000#32)) := by
  simp only [hostOps1]
  after_results_simp
  rfl

set_option maxHeartbeats 2000000 in
/-- the quotient, -/
theorem lines_quot (W : Valuation τ sig (Elt Ideal)) :
    StableHlo.after hostOps1 W (Proc.devRef .tc main_v24)
      = Host.divf (numer (sumsOf (W (Proc.devRef .tc main_v6)) (W (Proc.devRef .tc main_v1)) (W (Proc.devRef .tc main_v3))))
          (broadcastInDim S50000x256 ![0, 1] bcast_S50000x1_S50000x256_0_1
            (maximumf (denom (sumsOf (W (Proc.devRef .tc main_v6)) (W (Proc.devRef .tc main_v1)) (W (Proc.devRef .tc main_v3))))
              (broadcastInDim S50000x1 ![] bcast_S_S50000x1 (constant (F := Ideal) S_ .f32 0x2B8CBCCC#32)))) := by
  simp only [hostOps1]
  after_results_simp
  rfl

set_option maxHeartbeats 2000000 in
/-- and the zeros. -/
theorem lines_zero (W : Valuation τ sig (Elt Ideal)) :
    StableHlo.after hostOps1 W (Proc.devRef .tc main_v25)
      = broadcastInDim S50000x256 ![] bcast_S_S50000x256 (constant (F := Ideal) S_ .f32 0x00000000#32) := by
  simp only [hostOps1]
  after_results_simp

/-- The selection that ends the program, from ANY contents. -/
theorem lines_select (W : Valuation τ sig (Elt Ideal)) :
    StableHlo.after hostOps1_1 W (Proc.devRef .tc main_v26)
      = select (broadcastInDim S50000x256 ![0, 1] bcast_S50000x1_S50000x256_0_1 (W (Proc.devRef .tc main_v20)))
          (W (Proc.devRef .tc main_v24)) (W (Proc.devRef .tc main_v25)) := by
  simp only [hostOps1_1]
  after_results
  rfl

/-- The host's lines after the region, from ANY contents of the buffers: the result buffer ends at `outOf` of what the
    table's buffer and the two edge-row buffers held. -/
theorem after_lines (W : Valuation τ sig (Elt Ideal)) :
    StableHlo.after (List.flatten [hostOps1, hostOps1_1]) W (Proc.devRef .tc main_v26)
      = outOf (W (Proc.devRef .tc main_v6)) (W (Proc.devRef .tc main_v1)) (W (Proc.devRef .tc main_v3)) := by
  rw [show List.flatten [hostOps1 (F := Ideal), hostOps1_1] = hostOps1 ++ hostOps1_1 from by
    simp only [List.flatten_cons, List.flatten_nil, List.append_nil]]
  rw [after_append, lines_select, lines_test, lines_quot, lines_zero]
  rfl

variable (m : (ℓ : Loc nD τ sig) → Buf (Elt Ideal) ℓ)

/-- The two rows of the edge list, as the region finds them: the host's slices and reshapes of the argument. -/
theorem V_row0 (c : Dev nD) : V0 m c (Proc.devRef .tc main_v1) = edgeRow0 (m ((c.tc : Thread nD τ).loc main_arg1)) := by
  show StableHlo.after hostOps0 (fun b => m (c, b)) (Proc.devRef .tc main_v1) = _
  after_results
  rfl
theorem V_row1 (c : Dev nD) : V0 m c (Proc.devRef .tc main_v3) = edgeRow1 (m ((c.tc : Thread nD τ).loc main_arg1)) := by
  show StableHlo.after hostOps0 (fun b => m (c, b)) (Proc.devRef .tc main_v3) = _
  after_results
  rfl

/-- What the program's result buffer holds after the host's last line: `out` of the array the region left in the
    table's buffer and of the edge list. -/
theorem result_eq (c : Dev nD) :
    Pipeline.afterTail₀ cfgs (dats (F := Ideal) m) 0 (V0 m) [hostOps1, hostOps1_1] c main_v26
      = out ((dats (F := Ideal) m 0 c).arrAt 5 cfg0.N) (m ((c.tc : Thread nD τ).loc main_arg1)) := by
  unfold Pipeline.afterTail₀
  rw [after_lines]
  unfold out
  rw [Pipeline.withArrays_of_ne spec0 c (V0 m c) _ main_v1 (by decide), Pipeline.withArrays_of_ne spec0 c (V0 m c) _ main_v3 (by decide),
    V_row0, V_row1]
  exact congrArg (fun t => outOf t _ _) (Pipeline.withArrays_arr spec0 launch0.win.arr_inj c _ _ 5)

end Cert.KernelIdeal.Tail

end
-- ==== Proof.Spec.lean ====
import Idealize.ShloMosaic.Lib.ValueIdx
import Idealize.ShloMosaic.PureOps.Ideal.Laws

/-! # Attention-weighted neighbour mean: the per-node table

Every edge `e = (row, col)` of the graph weighs its source node's feature row `x[col]` by
`w = sigmoid (relu (x[col] · W1 + b1) · W2 + b2)`, a number that depends on the SOURCE NODE alone. So the weight is a
function `gate` of a feature row, and the two quantities an edge contributes to its destination — the weighted row
`x[col] · w` and the weight `w` — are row `col` of one table of `N` rows and `D + 1` columns: columns `0 … D − 1` hold
`x[n] · gate x[n]`, column `D` holds `gate x[n]`. This file states that table over the extended reals, index by index. -/

noncomputable section

namespace Cert.AttnMean

open Idealize.ShloMosaic Idealize.ShloMosaic.ValueIdx
open scoped BigOperators

/-- Hidden unit `j` of the attention network on a feature row: `max (row · W1[:, j] + b1[j]) 0`. -/
def hidden (W1 : (⟨2, ![256, 128]⟩ : Shape).Idx → EReal) (b1 : (⟨1, ![128]⟩ : Shape).Idx → EReal)
    (xr : Fin 256 → EReal) (j : Fin 128) : EReal :=
  max ((∑ d : Fin 256, xr d * W1 (ix2 d j)) + b1 (ix1 j)) (Ideal.ofBits .f32 0x00000000#32)

/-- The attention weight of a feature row: the logistic function of `hidden · W2 + b2`. -/
def gate (W1 : (⟨2, ![256, 128]⟩ : Shape).Idx → EReal) (b1 : (⟨1, ![128]⟩ : Shape).Idx → EReal)
    (W2 : (⟨2, ![128, 1]⟩ : Shape).Idx → EReal) (b2 : (⟨1, ![1]⟩ : Shape).Idx → EReal) (xr : Fin 256 → EReal) : EReal :=
  Ideal.logistic ((∑ j : Fin 128, hidden W1 b1 xr j * W2 (ix2 j 0)) + b2 (ix1 0))

/-- Row `n` of the node features. -/
def rowOf (x : (⟨2, ![50000, 256]⟩ : Shape).Idx → EReal) (n : Fin 50000) : Fin 256 → EReal := fun d => x (ix2 n d)

/-- The node table: entry `(n, k)` is `x[n, k] · gate x[n]` for a feature column `k < 256`, and `gate x[n]` in the last
    column `k = 256`. -/
def table (x : (⟨2, ![50000, 256]⟩ : Shape).Idx → EReal) (W1 : (⟨2, ![256, 128]⟩ : Shape).Idx → EReal)
    (b1 : (⟨1, ![128]⟩ : Shape).Idx → EReal) (W2 : (⟨2, ![128, 1]⟩ : Shape).Idx → EReal)
    (b2 : (⟨1, ![1]⟩ : Shape).Idx → EReal) : (⟨2, ![50000, 257]⟩ : Shape).Idx → EReal := fun i =>
  if h : (i 1).val < 256 then x (ix2 (i 0) ⟨(i 1).val, h⟩) * gate W1 b1 W2 b2 (rowOf x (i 0))
  else gate W1 b1 W2 b2 (rowOf x (i 0))

/-- A feature column of the table. -/
theorem table_feature (x : (⟨2, ![50000, 256]⟩ : Shape).Idx → EReal) (W1 : (⟨2, ![256, 128]⟩ : Shape).Idx → EReal)
    (b1 : (⟨1, ![128]⟩ : Shape).Idx → EReal) (W2 : (⟨2, ![128, 1]⟩ : Shape).Idx → EReal)
    (b2 : (⟨1, ![1]⟩ : Shape).Idx → EReal) (n : Fin 50000) (k : Fin 256) :
    table x W1 b1 W2 b2 (ix2 n ⟨k.val, by have := k.isLt; omega⟩) = x (ix2 n k) * gate W1 b1 W2 b2 (rowOf x n) := by
  unfold table
  have hk : ((ix2 n (⟨k.val, by have := k.isLt; omega⟩ : Fin 257) : (⟨2, ![50000, 257]⟩ : Shape).Idx) 1).val < 256 := k.isLt
  rw [dif_pos hk]

/-- The weight column of the table. -/
theorem table_weight (x : (⟨2, ![50000, 256]⟩ : Shape).Idx → EReal) (W1 : (⟨2, ![256, 128]⟩ : Shape).Idx → EReal)
    (b1 : (⟨1, ![128]⟩ : Shape).Idx → EReal) (W2 : (⟨2, ![128, 1]⟩ : Shape).Idx → EReal)
    (b2 : (⟨1, ![1]⟩ : Shape).Idx → EReal) (n : Fin 50000) :
    table x W1 b1 W2 b2 (ix2 n ⟨256, by omega⟩) = gate W1 b1 W2 b2 (rowOf x n) := by
  unfold table
  have hk : ¬ ((ix2 n (⟨256, by omega⟩ : Fin 257) : (⟨2, ![50000, 257]⟩ : Shape).Idx) 1).val < 256 := by
    show ¬ (256 < 256); omega
  rw [dif_neg hk]

end Cert.AttnMean

end
-- ==== Proof.BlockColumns.lean ====
import Idealize.ShloMosaic.Lib.Pipeline.Value
import Idealize.ShloMosaic.Lib.ValueIdx

/-! # A [2000,257] block filled by two stores, read column by column

A block of 2000 rows and 257 columns is filled by a store of 2000 × 256 values at column offset 0 and then a store of
one column of 2000 values at column offset 256. Read back, column 256 is the later store's column and every column
`k < 256` is the earlier store's column `k`. -/

noncomputable section

namespace Cert.KernelIdeal.NodeTable

open Idealize.ShloMosaic Idealize.ShloMosaic.ValueIdx

variable {Val : EltTy → Type} [∀ e, Nonempty (Val e)] {e : EltTy}

/-- The two pieces, the later store first: one column at column offset 256, then 256 columns at offset 0. -/
abbrev pieces (inbW : ∀ a, (![0, 256] : Fin 2 → Nat) a + (![2000, 1] : Fin 2 → Nat) a ≤ (⟨2, ![2000, 257]⟩ : Shape).size a)
    (inbX : ∀ a, (![0, 0] : Fin 2 → Nat) a + (![2000, 256] : Fin 2 → Nat) a ≤ (⟨2, ![2000, 257]⟩ : Shape).size a)
    (w : (⟨2, ![2000, 1]⟩ : Shape).Idx → Val e) (xw : (⟨2, ![2000, 256]⟩ : Shape).Idx → Val e) :
    List (View.Piece Val (⟨2, ![2000, 257]⟩ : Shape) e) :=
  [⟨Rect.unit ![0, 256] ![2000, 1] inbW, w⟩, ⟨Rect.unit ![0, 0] ![2000, 256] inbX, xw⟩]

/-- Row `r` of the one-column piece sits at `(r, 256)` of the block. -/
theorem emb_weight (inbW : ∀ a, (![0, 256] : Fin 2 → Nat) a + (![2000, 1] : Fin 2 → Nat) a ≤ (⟨2, ![2000, 257]⟩ : Shape).size a)
    (r : Fin 2000) :
    (Rect.unit (s := (⟨2, ![2000, 257]⟩ : Shape)) ![0, 256] ![2000, 1] inbW).emb (ix2 r (0 : Fin 1))
      = ix2 r (⟨256, by omega⟩ : Fin 257) :=
  funext fun a => Fin.ext (by
    match a with
    | ⟨0, _⟩ => show 0 + 1 * r.val = r.val; omega
    | ⟨1, _⟩ => show 256 + 1 * 0 = 256; rfl)

/-- Entry `(r, k)` of the 256-column piece sits at `(r, k)` of the block. -/
theorem emb_feature (inbX : ∀ a, (![0, 0] : Fin 2 → Nat) a + (![2000, 256] : Fin 2 → Nat) a ≤ (⟨2, ![2000, 257]⟩ : Shape).size a)
    (r : Fin 2000) (k : Fin 256) :
    (Rect.unit (s := (⟨2, ![2000, 257]⟩ : Shape)) ![0, 0] ![2000, 256] inbX).emb (ix2 r k)
      = ix2 r (⟨k.val, by have := k.isLt; omega⟩ : Fin 257) :=
  funext fun a => Fin.ext (by
    match a with
    | ⟨0, _⟩ => show 0 + 1 * r.val = r.val; omega
    | ⟨1, _⟩ => show 0 + 1 * k.val = k.val; omega)

/-- A column `k < 256` is outside the one-column piece. -/
theorem not_mem_weight (inbW : ∀ a, (![0, 256] : Fin 2 → Nat) a + (![2000, 1] : Fin 2 → Nat) a ≤ (⟨2, ![2000, 257]⟩ : Shape).size a)
    (r : Fin 2000) (k : Fin 256) :
    (ix2 r (⟨k.val, by have := k.isLt; omega⟩ : Fin 257) : (⟨2, ![2000, 257]⟩ : Shape).Idx)
      ∉ (Rect.unit (s := (⟨2, ![2000, 257]⟩ : Shape)) ![0, 256] ![2000, 1] inbW).set := by
  rw [Rect.mem_set_unit]
  intro h
  have h1 : (256 : Nat) ≤ k.val := (h 1).1
  have hk : k.val < 256 := k.isLt
  omega

/-- Column 256 of the block is the later store's column. -/
theorem canon_weight (inbW : ∀ a, (![0, 256] : Fin 2 → Nat) a + (![2000, 1] : Fin 2 → Nat) a ≤ (⟨2, ![2000, 257]⟩ : Shape).size a)
    (inbX : ∀ a, (![0, 0] : Fin 2 → Nat) a + (![2000, 256] : Fin 2 → Nat) a ≤ (⟨2, ![2000, 257]⟩ : Shape).size a)
    (w : (⟨2, ![2000, 1]⟩ : Shape).Idx → Val e) (xw : (⟨2, ![2000, 256]⟩ : Shape).Idx → Val e) (r : Fin 2000) :
    View.canon (pieces inbW inbX w xw) (ix2 r (⟨256, by omega⟩ : Fin 257)) = w (ix2 r (0 : Fin 1)) :=
  (congrArg (View.canon (pieces inbW inbX w xw)) (emb_weight inbW r).symm).trans
    (View.canon_cons_emb (Val := Val) (Rect.unit (s := (⟨2, ![2000, 257]⟩ : Shape)) ![0, 256] ![2000, 1] inbW) w _ (ix2 r (0 : Fin 1)))

/-- A column `k < 256` of the block is the earlier store's column `k`. -/
theorem canon_feature (inbW : ∀ a, (![0, 256] : Fin 2 → Nat) a + (![2000, 1] : Fin 2 → Nat) a ≤ (⟨2, ![2000, 257]⟩ : Shape).size a)
    (inbX : ∀ a, (![0, 0] : Fin 2 → Nat) a + (![2000, 256] : Fin 2 → Nat) a ≤ (⟨2, ![2000, 257]⟩ : Shape).size a)
    (w : (⟨2, ![2000, 1]⟩ : Shape).Idx → Val e) (xw : (⟨2, ![2000, 256]⟩ : Shape).Idx → Val e) (r : Fin 2000) (k : Fin 256) :
    View.canon (pieces inbW inbX w xw) (ix2 r (⟨k.val, by have := k.isLt; omega⟩ : Fin 257)) = xw (ix2 r k) :=
  (View.canon_cons_of_not_mem (Val := Val) (⟨Rect.unit ![0, 256] ![2000, 1] inbW, w⟩ : View.Piece Val (⟨2, ![2000, 257]⟩ : Shape) e)
      [⟨Rect.unit ![0, 0] ![2000, 256] inbX, xw⟩] (not_mem_weight inbW r k)).trans
    ((congrArg (View.canon [(⟨Rect.unit ![0, 0] ![2000, 256] inbX, xw⟩ : View.Piece Val (⟨2, ![2000, 257]⟩ : Shape) e)]) (emb_feature inbX r k).symm).trans
      (View.canon_cons_emb (Val := Val) (Rect.unit (s := (⟨2, ![2000, 257]⟩ : Shape)) ![0, 0] ![2000, 256] inbX) xw [] (ix2 r k)))

end Cert.KernelIdeal.NodeTable

end
-- ==== Proof.StoredBlock.lean ====
import proofs.«179201_j29317446762861_1_alg».proof.Proof.Gen.KernelIdeal.Frame
import proofs.«179201_j29317446762861_1_alg».proof.Proof.BlockColumns
import Idealize.ShloMosaic.Lib.Pipeline.Value
import Idealize.ShloMosaic.Lib.ValueIdx
import Idealize.ShloMosaic.Lib.Tactic

/-! # What one grid point leaves in its output block

At a grid point the body loads the point's 2000 feature rows and the four weight arrays, and stores two pieces into its
[2000,257] output block: the weighted rows into columns 0 … 255, then the weight column into column 256. The block it
leaves is the canonical contents of those two stores over the loaded values; its loads of the output block itself feed
nothing. -/

noncomputable section

namespace Cert.KernelIdeal.NodeTable

open Cert.KernelIdeal Cert.KernelIdeal.Gen Idealize.ShloMosaic Idealize.ShloMosaic.TcCoe Idealize.SL.Sem
open Idealize.ShloMosaic.ValueIdx

variable {F : FTy → Type} [FloatOps F]

theorem hz : (![0, 0] : Fin 2 → Nat) = fun _ => 0 := funext fun a => by fin_cases a <;> rfl

/-- The block a point leaves is the canonical contents of the body's two stores over its loaded blocks. -/
theorem stored_eq (c : Dev nD) (i : grid0.Coords) (arg1 : Memref sig .tc .vmem S2000x256 .f32) (harg1 : arg1.IsWhole) (arg2 : Memref sig .tc .vmem S256x128 .f32) (harg2 : arg2.IsWhole) (arg3 : Memref sig .tc .vmem S1x128 .f32) (harg3 : arg3.IsWhole) (arg4 : Memref sig .tc .vmem S128x1 .f32) (harg4 : arg4.IsWhole) (arg5 : Memref sig .tc .vmem S1x1 .f32) (harg5 : arg5.IsWhole) (arg6 : Memref sig .tc .vmem S2000x257 .f32) (harg6 : arg6.IsWhole)
    (x0 : Vec F S2000x256 .f32) (x1 : Vec F S256x128 .f32) (x2 : Vec F S1x128 .f32) (x3 : Vec F S128x1 .f32) (x4 : Vec F S1x1 .f32) :
    out0_A_5 c i arg1 harg1 arg2 harg2 arg3 harg3 arg4 harg4 arg5 harg5 arg6 harg6 x0 x1 x2 x3 x4
      = View.canon (pieces (Val := Elt F) Facts₀.inb_S2000x257_S2000x1_0_256 Facts₀.inb_S2000x257_S2000x256_0_0
          (k0_pay1 x0 x1 x2 x3 x4) (k0_pay2 x0 x1 x2 x3 x4)) := by
  unfold out0_A_5
  rw [View.read_writes_eq_canon _ _ _ (cover0_A_5 c i arg1 harg1 arg2 harg2 arg3 harg3 arg4 harg4 arg5 harg5 arg6 harg6 x0 x1 x2 x3 x4)]
  unfold kernelRun0_A
  dsimp only
  sl_unfold_words
  simp only [View.readAt_eq_ld, harg1.read_unread, harg2.read_unread, harg3.read_unread, harg4.read_unread,
    harg5.read_unread, View.ld_unit_zero (S := S2000x256) hz, View.ld_unit_zero (S := S256x128) hz,
    View.ld_unit_zero (S := S1x128) hz, View.ld_unit_zero (S := S128x1) hz, View.ld_unit_zero (S := S1x1) hz]

end Cert.KernelIdeal.NodeTable

end
-- ==== Proof.PointLoads.lean ====
import proofs.«179201_j29317446762861_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

/-! # What the body loads at a grid point

At point `t` the feature window holds rows `2000 t … 2000 t + 1999` of the node features; the four weight windows
hold their whole arrays at every point, the two biases as the host's reshapes `[128] → [1,128]` and `[1] → [1,1]` of
the launch-time vectors. -/

noncomputable section

namespace Cert.KernelIdeal.NodeTable

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The windows' block indices, decided over the 25 points: the feature window and the output window move down one
    block of rows per point; the weight windows stay at block `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the feature block at point `t` is row `2000 t + r` of the launch-time features. -/
theorem xblk_apply (c : Dev nD) (t : Fin cfg0.N) (r : Fin 2000) (d : Fin 256) (n : Fin 50000) (hn : n.val = 2000 * t.val + r.val) :
    (iblk m c 0 t : Vec F S2000x256 .f32) (ix2 r d) = m ((c.tc : Thread nD τ).loc main_arg0) (ix2 n d) := by
  obtain ⟨e0, e1, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 2) * 2000 + 1 * r.val = n.val; rw [e0, hn]; omega
  | ⟨1, _⟩ => show win0_0.index t (1 : Fin 2) * 256 + 1 * d.val = d.val; rw [e1]; omega

/-- The first weight matrix's window holds the whole launch-time matrix. -/
theorem w1blk_eq (c : Dev nD) (t : Fin cfg0.N) :
    (iblk m c 1 t : Vec F S256x128 .f32) = m ((c.tc : Thread nD τ).loc main_arg2) := by
  obtain ⟨-, -, e0, e1, -⟩ := idx_facts t
  funext j
  unfold iblk
  rw [View.read_apply]
  show V m c main_arg2 _ = m (c.tc.loc main_arg2) _
  rw [V_main_arg2]
  congr 1
  funext a
  apply Fin.ext
  match a with
  | ⟨0, _⟩ => show win0_1.index t (0 : Fin 2) * 256 + 1 * (j 0).val = (j 0).val; rw [e0]; omega
  | ⟨1, _⟩ => show win0_1.index t (1 : Fin 2) * 128 + 1 * (j 1).val = (j 1).val; rw [e1]; omega

/-- The second weight matrix's window holds the whole launch-time matrix. -/
theorem w2blk_eq (c : Dev nD) (t : Fin cfg0.N) :
    (iblk m c 3 t : Vec F S128x1 .f32) = m ((c.tc : Thread nD τ).loc main_arg4) := by
  obtain ⟨-, -, -, -, -, -, e0, e1, -⟩ := idx_facts t
  funext j
  unfold iblk
  rw [View.read_apply]
  show V m c main_arg4 _ = m (c.tc.loc main_arg4) _
  rw [V_main_arg4]
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 1 + 1 * (j 1).val = (j 1).val; rw [e1]; omega

/-- The host's reshape of the first bias to one row of 128. -/
theorem V_b1 (c : Dev nD) :
    (V m c main_v4 : S1x128.Idx → Elt F .f32) = shapeCast S1x128 (m ((c.tc : Thread nD τ).loc main_arg3)) Facts₀.shapeCasts_S128_S1x128 := by
  show StableHlo.after hostOps0 (fun b => m (c, b)) (Proc.devRef .tc main_v4) = _
  after_results
  rfl

/-- The host's reshape of the second bias to a [1,1] array. -/
theorem V_b2 (c : Dev nD) :
    (V m c main_v5 : S1x1.Idx → Elt F .f32) = shapeCast S1x1 (m ((c.tc : Thread nD τ).loc main_arg5)) Facts₀.shapeCasts_S1_S1x1 := by
  show StableHlo.after hostOps0 (fun b => m (c, b)) (Proc.devRef .tc main_v5) = _
  after_results
  rfl

/-- Entry `j` of the first bias's window is entry `j` of the launch-time bias vector. -/
theorem b1blk_apply (c : Dev nD) (t : Fin cfg0.N) (j : Fin 128) :
    (iblk m c 2 t : Vec F S1x128 .f32) (ix2 (0 : Fin 1) j) = m ((c.tc : Thread nD τ).loc main_arg3) (ix1 j) := by
  obtain ⟨-, -, -, -, e0, e1, -⟩ := idx_facts t
  unfold iblk
  rw [View.read_apply]
  show V m c main_v4 _ = _
  rw [V_b1]
  refine shapeCast_apply _ _ _ (ix1 j) ?_
  rw [Shape.rowMajor_val_one, Shape.rowMajor_val_two]
  show j.val = (win0_2.index t (0 : Fin 2) * 1 + 1 * 0) * 128 + (win0_2.index t (1 : Fin 2) * 128 + 1 * j.val)
  rw [e0, e1]; omega

/-- The one entry of the second bias's window is the launch-time bias. -/
theorem b2blk_apply (c : Dev nD) (t : Fin cfg0.N) :
    (iblk m c 4 t : Vec F S1x1 .f32) (ix2 (0 : Fin 1) (0 : Fin 1)) = m ((c.tc : Thread nD τ).loc main_arg5) (ix1 (0 : Fin 1)) := by
  obtain ⟨-, -, -, -, -, -, -, -, e0, e1, -⟩ := idx_facts t
  unfold iblk
  rw [View.read_apply]
  show V m c main_v5 _ = _
  rw [V_b2]
  refine shapeCast_apply _ _ _ (ix1 (0 : Fin 1)) ?_
  rw [Shape.rowMajor_val_one, Shape.rowMajor_val_two]
  show 0 = (win0_4.index t (0 : Fin 2) * 1 + 1 * 0) * 1 + (win0_4.index t (1 : Fin 2) * 1 + 1 * 0)
  rw [e0, e1]

end Cert.KernelIdeal.NodeTable

end
-- ==== Proof.Contractions.lean ====
import proofs.«179201_j29317446762861_1_alg».proof.Proof.Gen.KernelIdeal
import Idealize.ShloMosaic.Lib.ValueIdx
import Idealize.ShloMosaic.PureOps.Ideal.Laws

/-! # The body's two contractions, entry by entry

Over the extended reals a matrix product into the zero accumulator is the plain sum of products along the contracted
axis: entry `(r, j)` of `[2000,256] × [256,128]` is `∑ d, l (r, d) * w (d, j)`, and entry `(r, 0)` of
`[2000,128] × [128,1]` is `∑ j, l (r, j) * w (j, 0)`. -/

noncomputable section

namespace Cert.KernelIdeal.NodeTable

open Cert.KernelIdeal Cert.KernelIdeal.Gen Idealize.ShloMosaic Idealize.ShloMosaic.ValueIdx
open scoped BigOperators

/-! ## Which operand entries an output entry multiplies: axis by axis -/

theorem lhs_hid_0 (i : S2000x128.Idx) (q : dot_S2000x256_S256x128_S2000x128_1_0_0_1_n_n.contr.Idx) :
    (dot_S2000x256_S256x128_S2000x128_1_0_0_1_n_n.lhsIdx i q 0).val = (i 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl
theorem lhs_hid_1 (i : S2000x128.Idx) (q : dot_S2000x256_S256x128_S2000x128_1_0_0_1_n_n.contr.Idx) :
    (dot_S2000x256_S256x128_S2000x128_1_0_0_1_n_n.lhsIdx i q 1).val = (q ⟨0, by decide⟩).val :=
  dot_S2000x256_S256x128_S2000x128_1_0_0_1_n_n.lhsIdx_val_of_single rfl i q
theorem rhs_hid_0 (i : S2000x128.Idx) (q : dot_S2000x256_S256x128_S2000x128_1_0_0_1_n_n.contr.Idx) :
    (dot_S2000x256_S256x128_S2000x128_1_0_0_1_n_n.rhsIdx i q 0).val = (q ⟨0, by decide⟩).val :=
  dot_S2000x256_S256x128_S2000x128_1_0_0_1_n_n.rhsIdx_val_of_single rfl i q
theorem rhs_hid_1 (i : S2000x128.Idx) (q : dot_S2000x256_S256x128_S2000x128_1_0_0_1_n_n.contr.Idx) :
    (dot_S2000x256_S256x128_S2000x128_1_0_0_1_n_n.rhsIdx i q 1).val = (i 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

theorem lhs_out_0 (i : S2000x1.Idx) (q : dot_S2000x128_S128x1_S2000x1_1_0_0_1_n_n.contr.Idx) :
    (dot_S2000x128_S128x1_S2000x1_1_0_0_1_n_n.lhsIdx i q 0).val = (i 0).val := by
  unfold DotDims.lhsIdx
  rw [dif_neg (show ¬(0 : Fin S2000x128.rank) ∈ dot_S2000x128_S128x1_S2000x1_1_0_0_1_n_n.lhsBatch by decide), dif_pos (show (0 : Fin S2000x128.rank) ∈ dot_S2000x128_S128x1_S2000x1_1_0_0_1_n_n.lhsNonContracting by decide)]
  rfl
theorem lhs_out_1 (i : S2000x1.Idx) (q : dot_S2000x128_S128x1_S2000x1_1_0_0_1_n_n.contr.Idx) :
    (dot_S2000x128_S128x1_S2000x1_1_0_0_1_n_n.lhsIdx i q 1).val = (q ⟨0, by decide⟩).val :=
  dot_S2000x128_S128x1_S2000x1_1_0_0_1_n_n.lhsIdx_val_of_single rfl i q
theorem rhs_out_0 (i : S2000x1.Idx) (q : dot_S2000x128_S128x1_S2000x1_1_0_0_1_n_n.contr.Idx) :
    (dot_S2000x128_S128x1_S2000x1_1_0_0_1_n_n.rhsIdx i q 0).val = (q ⟨0, by decide⟩).val :=
  dot_S2000x128_S128x1_S2000x1_1_0_0_1_n_n.rhsIdx_val_of_single rfl i q
theorem rhs_out_1 (i : S2000x1.Idx) (q : dot_S2000x128_S128x1_S2000x1_1_0_0_1_n_n.contr.Idx) :
    (dot_S2000x128_S128x1_S2000x1_1_0_0_1_n_n.rhsIdx i q 1).val = (i 1).val := by
  unfold DotDims.rhsIdx
  rw [dif_neg (show ¬(1 : Fin S128x1.rank) ∈ dot_S2000x128_S128x1_S2000x1_1_0_0_1_n_n.rhsBatch by decide), dif_pos (show (1 : Fin S128x1.rank) ∈ dot_S2000x128_S128x1_S2000x1_1_0_0_1_n_n.rhsNonContracting by decide)]
  rfl

/-! ## The contractions -/

/-- Hidden pre-activation `(r, j)`: row `r` of the left operand against column `j` of the right. -/
theorem hidden_contraction (l : FVec Ideal S2000x256 .bf16) (w : FVec Ideal S256x128 .bf16) (r : Fin 2000) (j : Fin 128) :
    matmul dot_S2000x256_S256x128_S2000x128_1_0_0_1_n_n none l w (constant (F := Ideal) S2000x128 .f32 0x00000000#32) (ix2 r j)
      = ∑ d : Fin 256, l (ix2 r d) * w (ix2 d j) := by
  refine (Ideal.matmul_constant_zero_apply dot_S2000x256_S256x128_S2000x128_1_0_0_1_n_n none l w (ix2 r j)).trans ?_
  rw [← Equiv.sum_comp (ValueIdx.contrEquiv1 dot_S2000x256_S256x128_S2000x128_1_0_0_1_n_n 256 rfl rfl).symm]
  refine Finset.sum_congr rfl fun k _ => ?_
  have hk := ValueIdx.contrEquiv1_symm_val dot_S2000x256_S256x128_S2000x128_1_0_0_1_n_n 256 rfl rfl k
  have el : dot_S2000x256_S256x128_S2000x128_1_0_0_1_n_n.lhsIdx (ix2 r j) ((ValueIdx.contrEquiv1 dot_S2000x256_S256x128_S2000x128_1_0_0_1_n_n 256 rfl rfl).symm k) = ix2 r k := funext fun a => Fin.ext (by
    match a with
    | ⟨0, _⟩ => exact lhs_hid_0 _ _
    | ⟨1, _⟩ => exact (lhs_hid_1 _ _).trans hk)
  have er : dot_S2000x256_S256x128_S2000x128_1_0_0_1_n_n.rhsIdx (ix2 r j) ((ValueIdx.contrEquiv1 dot_S2000x256_S256x128_S2000x128_1_0_0_1_n_n 256 rfl rfl).symm k) = ix2 k j := funext fun a => Fin.ext (by
    match a with
    | ⟨0, _⟩ => exact (rhs_hid_0 _ _).trans hk
    | ⟨1, _⟩ => exact rhs_hid_1 _ _)
  rw [el, er]

/-- Output pre-activation of row `r`: row `r` of the left operand against the right operand's one column. -/
theorem out_contraction (l : FVec Ideal S2000x128 .bf16) (w : FVec Ideal S128x1 .bf16) (r : Fin 2000) :
    matmul dot_S2000x128_S128x1_S2000x1_1_0_0_1_n_n none l w (constant (F := Ideal) S2000x1 .f32 0x00000000#32) (ix2 r (0 : Fin 1))
      = ∑ j : Fin 128, l (ix2 r j) * w (ix2 j (0 : Fin 1)) := by
  refine (Ideal.matmul_constant_zero_apply dot_S2000x128_S128x1_S2000x1_1_0_0_1_n_n none l w (ix2 r (0 : Fin 1))).trans ?_
  rw [← Equiv.sum_comp (ValueIdx.contrEquiv1 dot_S2000x128_S128x1_S2000x1_1_0_0_1_n_n 128 rfl rfl).symm]
  refine Finset.sum_congr rfl fun k _ => ?_
  have hk := ValueIdx.contrEquiv1_symm_val dot_S2000x128_S128x1_S2000x1_1_0_0_1_n_n 128 rfl rfl k
  have el : dot_S2000x128_S128x1_S2000x1_1_0_0_1_n_n.lhsIdx (ix2 r (0 : Fin 1)) ((ValueIdx.contrEquiv1 dot_S2000x128_S128x1_S2000x1_1_0_0_1_n_n 128 rfl rfl).symm k) = ix2 r k := funext fun a => Fin.ext (by
    match a with
    | ⟨0, _⟩ => exact lhs_out_0 _ _
    | ⟨1, _⟩ => exact (lhs_out_1 _ _).trans hk)
  have er : dot_S2000x128_S128x1_S2000x1_1_0_0_1_n_n.rhsIdx (ix2 r (0 : Fin 1)) ((ValueIdx.contrEquiv1 dot_S2000x128_S128x1_S2000x1_1_0_0_1_n_n 128 rfl rfl).symm k) = ix2 k (0 : Fin 1) := funext fun a => Fin.ext (by
    match a with
    | ⟨0, _⟩ => exact (rhs_out_0 _ _).trans hk
    | ⟨1, _⟩ => exact rhs_out_1 _ _)
  rw [el, er]

end Cert.KernelIdeal.NodeTable

end
-- ==== Proof.PointWeight.lean ====
import proofs.«179201_j29317446762861_1_alg».proof.Proof.Gen.KernelIdeal.Skeleton
import proofs.«179201_j29317446762861_1_alg».proof.Proof.Contractions
import Idealize.ShloMosaic.Lib.Pipeline.Value
import Idealize.ShloMosaic.Lib.ValueIdx
import Idealize.ShloMosaic.Lib.ValueLayout
import Idealize.ShloMosaic.PureOps.Ideal.Laws

/-! # The body's arithmetic, entry by entry

Over the extended reals the narrowing casts are the identity, so for row `r` of the loaded feature block the weight the
body computes is the logistic function of `∑ j, max ((∑ d, x (r, d) * W1 (d, j)) + b1 (0, j)) 0 * W2 (j, 0) + b2 (0, 0)`,
and the weighted row is `x (r, k)` times that weight. -/

noncomputable section

namespace Cert.KernelIdeal.NodeTable

open Cert.KernelIdeal Cert.KernelIdeal.Gen Idealize.ShloMosaic Idealize.ShloMosaic.ValueIdx
open scoped BigOperators

/-! ## The three broadcasts -/

/-- One row of 128 repeated down 2000 rows. -/
theorem bcast_row {α : Type} (v : S1x128.Idx → α) (h : S1x128.Broadcasts S2000x128) (r : Fin 2000) (j : Fin 128) :
    broadcastTo S2000x128 v h (ix2 r j) = v (ix2 (0 : Fin 1) j) :=
  broadcastTo_apply v h (ix2 r j) (ix2 (0 : Fin 1) j) (fun a => by
    match a with
    | ⟨0, _⟩ => rfl
    | ⟨1, _⟩ => rfl)

/-- One entry repeated down a column of 2000. -/
theorem bcast_one {α : Type} (v : S1x1.Idx → α) (h : S1x1.Broadcasts S2000x1) (r : Fin 2000) :
    broadcastTo S2000x1 v h (ix2 r (0 : Fin 1)) = v (ix2 (0 : Fin 1) (0 : Fin 1)) :=
  broadcastTo_apply v h (ix2 r (0 : Fin 1)) (ix2 (0 : Fin 1) (0 : Fin 1)) (fun a => by
    match a with
    | ⟨0, _⟩ => rfl
    | ⟨1, _⟩ => rfl)

/-- A column of 2000 repeated across 256 columns. -/
theorem bcast_col {α : Type} (v : S2000x1.Idx → α) (h : S2000x1.Broadcasts S2000x256) (r : Fin 2000) (k : Fin 256) :
    broadcastTo S2000x256 v h (ix2 r k) = v (ix2 r (0 : Fin 1)) :=
  broadcastTo_apply v h (ix2 r k) (ix2 r (0 : Fin 1)) (fun a => by
    match a with
    | ⟨0, _⟩ => rfl
    | ⟨1, _⟩ => rfl)

/-! ## The two stored values -/

/-- The weight of row `r`. -/
theorem weight_apply (x0 : Vec Ideal S2000x256 .f32) (x1 : Vec Ideal S256x128 .f32) (x2 : Vec Ideal S1x128 .f32)
    (x3 : Vec Ideal S128x1 .f32) (x4 : Vec Ideal S1x1 .f32) (r : Fin 2000) :
    k0_pay1 (F := Ideal) x0 x1 x2 x3 x4 (ix2 r (0 : Fin 1))
      = Ideal.logistic ((∑ j : Fin 128, max ((∑ d : Fin 256, x0 (ix2 r d) * x1 (ix2 d j)) + x2 (ix2 (0 : Fin 1) j))
            (Ideal.ofBits .f32 0x00000000#32) * x3 (ix2 j (0 : Fin 1))) + x4 (ix2 (0 : Fin 1) (0 : Fin 1))) := by
  unfold k0_pay1
  refine congrArg Ideal.logistic ?_
  refine congrArg₂ (· + ·) ?_ ?_
  · refine (out_contraction _ _ r).trans ?_
    refine Finset.sum_congr rfl fun j _ => ?_
    refine congrArg (· * x3 (ix2 j (0 : Fin 1))) ?_
    refine congrArg₂ max ?_ rfl
    refine congrArg₂ (· + ·) (hidden_contraction _ _ r j) ?_
    exact (bcast_row _ _ r j).trans (congrFun (shapeCast_self x2 _) _)
  · exact (bcast_one _ _ r).trans (congrFun (shapeCast_self x4 _) _)

/-- The weighted feature `(r, k)`: the feature times the row's weight. -/
theorem weighted_apply (x0 : Vec Ideal S2000x256 .f32) (x1 : Vec Ideal S256x128 .f32) (x2 : Vec Ideal S1x128 .f32)
    (x3 : Vec Ideal S128x1 .f32) (x4 : Vec Ideal S1x1 .f32) (r : Fin 2000) (k : Fin 256) :
    k0_pay2 (F := Ideal) x0 x1 x2 x3 x4 (ix2 r k)
      = x0 (ix2 r k) * k0_pay1 (F := Ideal) x0 x1 x2 x3 x4 (ix2 r (0 : Fin 1)) := by
  unfold k0_pay2
  exact congrArg (x0 (ix2 r k) * ·) (bcast_col _ _ r k)

end Cert.KernelIdeal.NodeTable

end
-- ==== Proof.NodeTable.lean ====
import proofs.«179201_j29317446762861_1_alg».proof.Proof.Gen.KernelIdeal.Frame
import proofs.«179201_j29317446762861_1_alg».proof.Proof.Spec
import proofs.«179201_j29317446762861_1_alg».proof.Proof.StoredBlock
import proofs.«179201_j29317446762861_1_alg».proof.Proof.PointLoads
import proofs.«179201_j29317446762861_1_alg».proof.Proof.PointWeight
import Idealize.ShloMosaic.Lib.Pipeline.Value
import Idealize.ShloMosaic.Lib.ValueIdx

/-! # The array the region leaves is the node table

Point `t` of the 25 writes back rows `2000 t … 2000 t + 1999` of the output array: in columns `k < 256` the feature
`x[n, k]` times the weight of row `n`, in column 256 that weight, where the weight of row `n` is the logistic
function of the two-layer network on `x[n]`. Row `n` lies in the block of point `n / 2000`, so after the last point
the whole array is the table of the launch-time arguments. -/

noncomputable section

namespace Cert.KernelIdeal.NodeTable

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ)

/-- The weight the body computes for row `r` of point `t`'s block is the specification's weight of row
    `n = 2000 t + r` of the launch-time features. -/
theorem row_weight (c : Dev nD) (t : Fin cfg0.N) (r : Fin 2000) (n : Fin 50000) (hn : n.val = 2000 * t.val + r.val) :
    k0_pay1 (F := Ideal) (iblk m c 0 t) (iblk m c 1 t) (iblk m c 2 t) (iblk m c 3 t) (iblk m c 4 t) (ix2 r (0 : Fin 1))
      = Cert.AttnMean.gate (m ((c.tc : Thread nD τ).loc main_arg2)) (m ((c.tc : Thread nD τ).loc main_arg3)) (m ((c.tc : Thread nD τ).loc main_arg4)) (m ((c.tc : Thread nD τ).loc main_arg5))
        (Cert.AttnMean.rowOf (m ((c.tc : Thread nD τ).loc main_arg0)) n) := by
  refine (weight_apply (iblk m c 0 t) (iblk m c 1 t) (iblk m c 2 t) (iblk m c 3 t) (iblk m c 4 t) r).trans ?_
  unfold Cert.AttnMean.gate Cert.AttnMean.hidden Cert.AttnMean.rowOf
  refine congrArg Ideal.logistic ?_
  refine congrArg₂ (· + ·) ?_ (b2blk_apply m c t)
  refine Finset.sum_congr rfl fun j _ => ?_
  refine congrArg₂ (· * ·) ?_ (congrFun (w2blk_eq m c t) (ix2 j (0 : Fin 1)))
  refine congrArg₂ max ?_ rfl
  refine congrArg₂ (· + ·) ?_ (b1blk_apply m c t j)
  refine Finset.sum_congr rfl fun d _ => ?_
  exact congrArg₂ (· * ·) (xblk_apply m c t r d n hn) (congrFun (w1blk_eq m c t) (ix2 d j))

/-- A feature entry `(r, k)`, `k < 256`, of the block point `t` leaves is entry `(2000 t + r, k)` of the table. -/
theorem block_feature (c : Dev nD) (t : Fin cfg0.N) (r : Fin 2000) (k : Fin 256) (n : Fin 50000) (hn : n.val = 2000 * t.val + r.val) :
    outsAt0 (F := Ideal) m c t (ix2 r (⟨k.val, by have := k.isLt; omega⟩ : Fin 257))
      = Cert.AttnMean.table (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) (ix2 n (⟨k.val, by have := k.isLt; omega⟩ : Fin 257)) := by
  unfold outsAt0
  refine (((congrFun (stored_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)) _)).trans ?_).trans (Cert.AttnMean.table_feature _ _ _ _ _ n k).symm
  refine (canon_feature _ _ _ _ r k).trans ?_
  refine (weighted_apply (iblk m c 0 t) (iblk m c 1 t) (iblk m c 2 t) (iblk m c 3 t) (iblk m c 4 t) r k).trans ?_
  exact congrArg₂ (· * ·) (xblk_apply m c t r k n hn) (row_weight m c t r n hn)

/-- Entry `(r, 256)` of the block point `t` leaves is the weight of row `2000 t + r`. -/
theorem block_weight (c : Dev nD) (t : Fin cfg0.N) (r : Fin 2000) (n : Fin 50000) (hn : n.val = 2000 * t.val + r.val) :
    outsAt0 (F := Ideal) m c t (ix2 r (⟨256, by omega⟩ : Fin 257))
      = Cert.AttnMean.table (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) (ix2 n (⟨256, by omega⟩ : Fin 257)) := by
  unfold outsAt0
  refine (((congrFun (stored_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (iblk m c 4 t)) _)).trans ?_).trans (Cert.AttnMean.table_weight _ _ _ _ _ n).symm
  refine (canon_weight _ _ _ _ r).trans ?_
  exact row_weight m c t r n hn

/-- Entry `(r, k)` of the block point `t` leaves is entry `(2000 t + r, k)` of the table. -/
theorem block_entry (c : Dev nD) (t : Fin cfg0.N) (r : Fin 2000) (k : Fin 257) (n : Fin 50000) (hn : n.val = 2000 * t.val + r.val) :
    outsAt0 (F := Ideal) m c t (ix2 r k)
      = Cert.AttnMean.table (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) (ix2 n k) := by
  by_cases hk : k.val < 256
  · exact block_feature m c t r ⟨k.val, hk⟩ n hn
  · have e : k = (⟨256, Nat.lt_succ_self 256⟩ : Fin 257) := Fin.ext (by show k.val = 256; have := k.isLt; omega)
    subst e
    exact block_weight m c t r n hn

/-- WHAT POINT `t` WRITES BACK is block `t` of the table. -/
theorem flushed_eq (c : Dev nD) (t : Fin cfg0.N) :
    (dats (F := Ideal) m 0 c).flushed 5 t = ((cfg0.win 5).blk t).view.read (Elt Ideal)
      (Cert.AttnMean.table (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))) := by
  have hN : cfg0.N = 25 := N_0
  have ht : t.val < 25 := by have := t.isLt; omega
  obtain ⟨-, -, -, -, -, -, -, -, -, -, e0, e1⟩ := idx_facts t
  show (cfg0.win 5).cut (grid0.coords t) ((dats m 0 c).after 5 t) = _
  rw [after0_5]
  funext j
  have hj0 : (j 0).val < 2000 := (j 0).isLt
  have hj1 : (j 1).val < 257 := (j 1).isLt
  have hx : ((cfg0.win 5).xinj (grid0.coords t) j : S2000x257.Idx) = ix2 (⟨(j 0).val, hj0⟩ : Fin 2000) (⟨(j 1).val, hj1⟩ : Fin 257) :=
    funext fun a => by
      match a with
      | ⟨0, _⟩ => rfl
      | ⟨1, _⟩ => rfl
  rw [View.read_apply]
  show outsAt0 (F := Ideal) m c t ((cfg0.win 5).xinj (grid0.coords t) j) = _
  refine (congrArg (outsAt0 (F := Ideal) m c t) hx).trans ?_
  refine (block_entry m c t ⟨(j 0).val, hj0⟩ ⟨(j 1).val, hj1⟩ ⟨2000 * t.val + (j 0).val, by omega⟩ rfl).trans ?_
  refine congrArg (Cert.AttnMean.table (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5))) ?_
  funext a
  apply Fin.ext
  match a with
  | ⟨0, _⟩ => show 2000 * t.val + (j 0).val = win0_5.index t (0 : Fin 2) * 2000 + 1 * (j 0).val; rw [e0]; omega
  | ⟨1, _⟩ => show (j 1).val = win0_5.index t (1 : Fin 2) * 257 + 1 * (j 1).val; rw [e1]; omega

/-- An index of the array is in point `t`'s block iff each coordinate is in the block's range on its axis. -/
theorem mem_blk (t : Fin cfg0.N) (i : S50000x257.Idx) :
    i ∈ ((cfg0.win 5).blk t).view.set ↔ ∀ a : Fin 2, win0_5.index t a * S2000x257.size a ≤ (i a).val ∧ (i a).val < win0_5.index t a * S2000x257.size a + S2000x257.size a := by
  show i ∈ ((View.whole main_v6).slice (win0_5.rect t)).set ↔ _
  rw [View.set_slice_whole, Rect.mem_set_unit]
  exact Iff.rfl

/-- THE ARRAY after the region: the table of the launch-time arguments. -/
theorem table_eq (c : Dev nD) :
    (Gen.dats (F := Ideal) m 0 c).arrAt 5 cfg0.N
      = Cert.AttnMean.table (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)) :=
  (dats m 0 c).arrAt_eq_of_cover 5 _ (fun t _ => flushed_eq m c t) fun i => by
    have hN : cfg0.N = 25 := N_0
    have hi0 : (i 0).val < 50000 := (i 0).isLt
    have hi1 : (i 1).val < 257 := (i 1).isLt
    let t : Fin cfg0.N := ⟨(i 0).val / 2000, by rw [hN]; omega⟩
    obtain ⟨-, -, -, -, -, -, -, -, -, -, e0, e1⟩ := idx_facts t
    have e0' : win0_5.index t (0 : Fin 2) = (i 0).val / 2000 := e0
    refine ⟨t, flush0_5 t, ?_⟩
    rw [mem_blk]
    intro a
    match a with
    | ⟨0, _⟩ => show win0_5.index t (0 : Fin 2) * 2000 ≤ (i 0).val ∧ (i 0).val < win0_5.index t (0 : Fin 2) * 2000 + 2000; rw [e0']; omega
    | ⟨1, _⟩ => show win0_5.index t (1 : Fin 2) * 257 ≤ (i 1).val ∧ (i 1).val < win0_5.index t (1 : Fin 2) * 257 + 257; rw [e1]; omega

end Cert.KernelIdeal.NodeTable

end
-- ==== Proof.RunValue.lean ====
import proofs.«179201_j29317446762861_1_alg».proof.Proof.Tail
import proofs.«179201_j29317446762861_1_alg».proof.Proof.NodeTable

/-! # The kernel program's run, with its result named

Every weakly fair execution of the idealized kernel program ends with its result buffer at the edge stage
(`Tail.out`) of the specification's node table (`AttnMean.table` of the launch-time arguments) and of the edge list,
and with the six argument arrays as launched: the generated frame run, whose post names the array each window leaves
and every other buffer after the host's last lines, read at the result buffer (Tail.lean), at the table's window
(NodeTable.lean) and at the arguments. -/

noncomputable section

namespace Cert.KernelIdeal.RunValue

open Cert.KernelIdeal Cert.KernelIdeal.Gen Idealize.ShloMosaic Idealize.ShloMosaic.TcCoe Idealize.SL.Sem

/-- The result as a function of the launch-time arguments on core `c`. -/
def result (m : (ℓ : Loc nD τ sig) → Buf (Elt Ideal) ℓ) (c : Dev nD) : Buf (Elt Ideal) ((c.tc : Thread nD τ).loc main_v26) :=
  Tail.out
    (Cert.AttnMean.table (m ((c.tc : Thread nD τ).loc main_arg0)) (m ((c.tc : Thread nD τ).loc main_arg2))
      (m ((c.tc : Thread nD τ).loc main_arg3)) (m ((c.tc : Thread nD τ).loc main_arg4)) (m ((c.tc : Thread nD τ).loc main_arg5)))
    (m ((c.tc : Thread nD τ).loc main_arg1))

theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(((h c).2 main_v26 (Pipeline.mem_restRefs_of main_v26 (by decide) (by decide))).trans (Tail.result_eq m c)).trans
        (congrArg (fun tbl => Tail.out tbl (m ((c.tc : Thread nD τ).loc main_arg1))) (NodeTable.table_eq m c)),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.RunValue

end
-- ==== Proof.LibSegmentScatter.lean ====
import Idealize.ShloMosaic.Lib.ValueIdx
import Idealize.ShloMosaic.Lib.StableHlo.Predicate
import Idealize.ShloMosaic.PureOps.Ideal.Laws

/-! # Segment gathers and accumulating scatters by a column of start indices, read at an index

The message passing of a graph layer moves rows between a table of `N` rows and a list of `E` edges through ONE column
`[E, 1]` of start indices: the gather copies, for each edge, the table's row at the edge's index; the scatter-add sums,
into each row of the table, the edges' rows whose index is that row. This file reads both at an index, for every
extent `N`, `E`, `C`, in the two layouts a program prints: rows `[N, C]` ↔ `[E, C]` (axis 0 indexed, axis 1 carried whole as
the window / offset axis) and entries `[N]` ↔ `[E]` (no window axis).

* The GATHER reads its start index SIGNED and CLAMPS it into the table: entry `(e, k)` of the result is the table's at
  row `min idx[e,0] (N − 1)` (a negative index reads row 0) and column `k` (`gather_rows_apply`, `gather_entries_apply`).
* The SCATTER-ADD reads its start index SIGNED and does NOT clamp it: update `(e, k')` lands at `(v, k)` exactly when
  `idx[e,0] = v` as integers and `k' = k` (`rows_resultIdx?_eq_some_iff`, `entries_resultIdx?_eq_some_iff`), so over the
  extended reals entry `(v, k)` of the result is the operand's plus `Σ_e [idx[e,0] = v] · upd[e, k]`; an update whose index
  is negative or ≥ `N` meets no `v` and adds nothing (`scatterAdd_rows_apply`, `scatterAdd_entries_apply`).

Each family of dimension numbers is a record built from its well-formedness alone (`rowScatterDims`, `entryScatterDims`,
`rowGatherDims`, `entryGatherDims`), so a program's printed record with these numbers IS that record at the program's
extents, and a lemma here applies to it as it stands. Every step is over symbolic extents: nothing is enumerated. -/

noncomputable section

namespace Cert.LibSegmentScatter

open Idealize.ShloMosaic Idealize.ShloMosaic.ValueIdx
open scoped BigOperators

/-! ## The row scatter-add: a [N, C] operand, [E, 1] start indices, [E, C] updates -/

/-- The dimension numbers of a row scatter: the updates' axis 1 is the window axis, the operand's axis 0 is inserted
    and indexed by the one component of the start index, which sits on axis 1 of the start indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the indexed axis the window starts at the edge's start index, read signed. -/
theorem rows_start_zero : (rowScatterDims N E C wf).start (ix2 e k') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the carried axis the window starts at 0. -/
theorem rows_start_one : (rowScatterDims N E C wf).start (ix2 e k') idx 1 = 0 := by
  unfold ScatterDims.start
  rw [dif_neg (show (1 : Fin 2) ∉ ([0] : List (Fin 2)) by decide)]

/-- The indexed axis is inserted: no window coordinate there. -/
theorem rows_window_zero : (rowScatterDims N E C wf).window (ix2 e k') 0 = 0 := by
  unfold ScatterDims.window
  have h0 : (0 : Fin 2) ∉ (rowScatterDims N E C wf).sKept := fun h =>
    absurd (List.mem_filter.1 h).2 (show ¬ (decide ((0 : Fin 2) ∉ ([0] : List (Fin 2))) = true) by decide)
  rw [dif_neg h0]

/-- On the carried axis the window coordinate is the update's column. -/
theorem rows_window_one : (rowScatterDims N E C wf).window (ix2 e k') 1 = k'.val := by
  unfold ScatterDims.window
  have h1 : (1 : Fin 2) ∈ (rowScatterDims N E C wf).sKept :=
    List.mem_filter.2 ⟨List.mem_finRange _, (show decide ((1 : Fin 2) ∉ ([0] : List (Fin 2))) = true by decide)⟩
  rw [dif_pos h1]
  rfl

/-- An update (e, k') of the row scatter lands at entry (v, k) exactly when its start index, read signed, is v and its
    column is k. -/
theorem rows_resultIdx?_eq_some_iff (v : Fin N) (k : Fin C) :
    (rowScatterDims N E C wf).resultIdx? (ix2 e k') idx = some (ix2 v k)
      ↔ (idx (ix2 e 0)).toInt = (v.val : ℤ) ∧ k' = k := by
  unfold ScatterDims.resultIdx?
  constructor
  · intro h
    split at h
    · rename_i hc
      have h' := Option.some.inj h
      have e0 := congrArg (fun f => (f 0).val) h'
      have e1 := congrArg (fun f => (f 1).val) h'
      have c0 := (hc 0).1
      simp only [rows_start_zero, rows_window_zero, rows_start_one, rows_window_one] at e0 e1 c0
      refine ⟨?_, Fin.ext ?_⟩
      · have : ((v : ℕ) : ℤ) = ((ix2 v k 0 : Fin N) : ℕ) := rfl
        omega
      · have : (k : ℕ) = ((ix2 v k 1 : Fin C) : ℕ) := rfl
        omega
    · exact absurd h (by simp)
  · rintro ⟨hv, rfl⟩
    have hc : ∀ a, 0 ≤ (rowScatterDims N E C wf).start (ix2 e k') idx a + (rowScatterDims N E C wf).window (ix2 e k') a
        ∧ (rowScatterDims N E C wf).start (ix2 e k') idx a + (rowScatterDims N E C wf).window (ix2 e k') a
          < (((⟨2, ![N, C]⟩ : Shape).size a : ℕ) : ℤ) := by
      intro a
      match a with
      | ⟨0, _⟩ =>
        show 0 ≤ (rowScatterDims N E C wf).start (ix2 e k') idx 0 + (rowScatterDims N E C wf).window (ix2 e k') 0
          ∧ (rowScatterDims N E C wf).start (ix2 e k') idx 0 + (rowScatterDims N E C wf).window (ix2 e k') 0 < ((N : ℕ) : ℤ)
        rw [rows_start_zero, rows_window_zero, hv]
        have := v.isLt
        omega
      | ⟨1, _⟩ =>
        show 0 ≤ (rowScatterDims N E C wf).start (ix2 e k') idx 1 + (rowScatterDims N E C wf).window (ix2 e k') 1
          ∧ (rowScatterDims N E C wf).start (ix2 e k') idx 1 + (rowScatterDims N E C wf).window (ix2 e k') 1 < ((C : ℕ) : ℤ)
        rw [rows_start_one, rows_window_one]
        have := k'.isLt
        omega
    rw [dif_pos hc]
    congr 1
    funext a
    refine Fin.ext ?_
    match a with
    | ⟨0, _⟩ =>
      show ((rowScatterDims N E C wf).start (ix2 e k') idx 0 + (rowScatterDims N E C wf).window (ix2 e k') 0).toNat = v.val
      rw [rows_start_zero, rows_window_zero, hv]
      omega
    | ⟨1, _⟩ =>
      show ((rowScatterDims N E C wf).start (ix2 e k') idx 1 + (rowScatterDims N E C wf).window (ix2 e k') 1).toNat = k'.val
      rw [rows_start_one, rows_window_one]
      omega

end Rows

/-- THE ROW SCATTER-ADD READ AT (v, k): the operand's entry plus the updates' column k over the edges whose start index,
    read signed, is v. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (k : Fin C) :
    Ideal.hostScatterAdd (rowScatterDims N E C wf) x idx upd (ix2 v k)
      = x (ix2 v k) + ∑ e : Fin E, if (idx (ix2 e 0)).toInt = (v.val : ℤ) then upd (ix2 e k) else 0 := by
  unfold Ideal.hostScatterAdd
  congr 1
  rw [Finset.sum_filter, sum_idx2]
  refine Finset.sum_congr rfl fun e _ => ?_
  simp only [rows_resultIdx?_eq_some_iff]
  by_cases hv : (idx (ix2 e 0)).toInt = (v.val : ℤ)
  · simp only [hv, true_and, Finset.sum_ite_eq', Finset.mem_univ, if_true]
  · simp only [hv, false_and, if_false, Finset.sum_const_zero]

/-! ## The entry scatter-add: a [N] operand, [E, 1] start indices, [E] updates -/

/-- The dimension numbers of an entry scatter: no window axis; the operand's one axis is inserted and indexed. -/
abbrev entryScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

section Entries
variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the edge's start index, read signed. -/
theorem entries_start : (entryScatterDims N E wf).start (ix1 e) idx 0 = (idx (ix2 e 0)).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one axis is inserted: no window coordinate. -/
theorem entries_window : (entryScatterDims N E wf).window (ix1 e) 0 = 0 := by
  unfold ScatterDims.window
  have h0 : (0 : Fin 1) ∉ (entryScatterDims N E wf).sKept := fun h =>
    absurd (List.mem_filter.1 h).2 (show ¬ (decide ((0 : Fin 1) ∉ ([0] : List (Fin 1))) = true) by decide)
  rw [dif_neg h0]

/-- An update e of the entry scatter lands at entry v exactly when its start index, read signed, is v. -/
theorem entries_resultIdx?_eq_some_iff (v : Fin N) :
    (entryScatterDims N E wf).resultIdx? (ix1 e) idx = some (ix1 v) ↔ (idx (ix2 e 0)).toInt = (v.val : ℤ) := by
  unfold ScatterDims.resultIdx?
  constructor
  · intro h
    split at h
    · rename_i hc
      have h' := Option.some.inj h
      have e0 := congrArg (fun f => (f 0).val) h'
      have c0 := (hc 0).1
      simp only [entries_start, entries_window] at e0 c0
      have : ((v : ℕ) : ℤ) = ((ix1 v 0 : Fin N) : ℕ) := rfl
      omega
    · exact absurd h (by simp)
  · intro hv
    have hc : ∀ a, 0 ≤ (entryScatterDims N E wf).start (ix1 e) idx a + (entryScatterDims N E wf).window (ix1 e) a
        ∧ (entryScatterDims N E wf).start (ix1 e) idx a + (entryScatterDims N E wf).window (ix1 e) a
          < (((⟨1, ![N]⟩ : Shape).size a : ℕ) : ℤ) := by
      intro a
      match a with
      | ⟨0, _⟩ =>
        show 0 ≤ (entryScatterDims N E wf).start (ix1 e) idx 0 + (entryScatterDims N E wf).window (ix1 e) 0
          ∧ (entryScatterDims N E wf).start (ix1 e) idx 0 + (entryScatterDims N E wf).window (ix1 e) 0 < ((N : ℕ) : ℤ)
        rw [entries_start, entries_window, hv]
        have := v.isLt
        omega
    rw [dif_pos hc]
    congr 1
    funext a
    refine Fin.ext ?_
    match a with
    | ⟨0, _⟩ =>
      show ((entryScatterDims N E wf).start (ix1 e) idx 0 + (entryScatterDims N E wf).window (ix1 e) 0).toNat = v.val
      rw [entries_start, entries_window, hv]
      omega

end Entries

/-- THE ENTRY SCATTER-ADD READ AT v: the operand's entry plus the updates over the edges whose start index, read signed,
    is v. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (entryScatterDims N E wf) x idx upd (ix1 v)
      = x (ix1 v) + ∑ e : Fin E, if (idx (ix2 e 0)).toInt = (v.val : ℤ) then upd (ix1 e) else 0 := by
  unfold Ideal.hostScatterAdd
  congr 1
  rw [Finset.sum_filter, sum_idx1]
  refine Finset.sum_congr rfl fun e _ => ?_
  simp only [entries_resultIdx?_eq_some_iff]

/-! ## The row gather and the entry gather -/

/-- The dimension numbers of a row gather: the operand's axis 0 is collapsed and indexed (slice size 1), its axis 1 is
    taken whole (slice size C) onto the result's offset axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, k): the table at the row `idx[e,0]` read signed and clamped into `[0, N − 1]`, column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have h1 : (1 : Fin 2) ∈ (rowGatherDims N E C wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos h1]
    simp only [Nat.add_zero, Nat.zero_add]
    rfl

/-- The dimension numbers of an entry gather: the operand's one axis is collapsed and indexed; no offset axis. -/
abbrev entryGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the table at `idx[e,0]` read signed and clamped into `[0, N − 1]`. -/
theorem gather_entries_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    show (entryGatherDims N E wf).start (ix1 e) idx 0 + (entryGatherDims N E wf).batchCoord (ix1 e) 0
      + (entryGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryGatherDims N E wf).startIndexMap from List.mem_singleton.mpr rfl)]
    have hsi : (entryGatherDims N E wf).siIdx (ix1 e) ⟨List.idxOf (0 : Fin 1) (entryGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.LibSegmentScatter

end
-- ==== Proof.EdgeWeight.lean ====
import proofs.«179201_j29317446762861_1_alg».proof.Proof.EdgeStage
import proofs.«179201_j29317446762861_1_alg».proof.Proof.Gen.ReferenceIdeal.Read
import proofs.«179201_j29317446762861_1_alg».proof.Proof.LibSegmentScatter
import proofs.«179201_j29317446762861_1_alg».proof.Proof.Spec
import Idealize.ShloMosaic.PureOps.IdealRules

/-! # An edge's weight is its source node's

The reference gathers `x[col]`, runs the attention network on every edge, and scatter-adds `x[col] · w` and `w` by
`row`. The kernel program runs the network once per node, into the table of `Spec.lean`, gathers the table's rows by
`col` and scatter-adds them by `row`. Entry by entry the two segment sums agree: an edge's weight is `gate` of the
feature row of its source node (`edge_weight`), so the edge's update is row `src e` of the table, in the feature columns
(`numer_eq`) and in the weight column (`denom_eq`). The quotient that follows is the same composition of the same
operations on both sides. Nothing here needs an input to be finite: both sides are the same sums of the same terms. -/

set_option maxRecDepth 16384

noncomputable section

namespace Cert.Bridge

open Idealize.ShloMosaic Idealize.ShloMosaic.ValueIdx Cert.LibSegmentScatter Cert.AttnMean
open Cert.ReferenceIdeal.Read Cert.KernelIdeal.Tail
open scoped BigOperators

variable (x0 : (⟨2, ![50000, 256]⟩ : Shape).Idx → EReal) (ei : IVec ⟨2, ![2, 800000]⟩ 32)
  (x2 : (⟨2, ![256, 128]⟩ : Shape).Idx → EReal) (x3 : (⟨1, ![128]⟩ : Shape).Idx → EReal)
  (x4 : (⟨2, ![128, 1]⟩ : Shape).Idx → EReal) (x5 : (⟨1, ![1]⟩ : Shape).Idx → EReal)

/-! ## The index columns -/

/-- The kernel program's column of source indices is the reference's. -/
theorem srcIdx_eq : srcIdxOf (edgeRow1 ei) = val_main_v9 (F := Ideal) ei := rfl
/-- The kernel program's column of destination indices is the reference's, for both of its scatters. -/
theorem dstIdx_eq : dstIdxOf (edgeRow0 ei) = val_main_v29 (F := Ideal) ei := rfl
theorem dstIdx_eq' : dstIdxOf (edgeRow0 ei) = val_main_v32 (F := Ideal) ei := rfl

/-- The source node of edge `e`: its wrapped source index, read signed and clamped into the table. -/
def src (e : Fin 800000) : Fin 50000 :=
  ⟨min (val_main_v9 (F := Ideal) ei (ix2 e 0)).toInt.toNat (50000 - 1), by omega⟩

/-! ## The gathers -/

/-- The kernel program's gather reads row `src e` of the table. -/
theorem gather_table (tbl : (⟨2, ![50000, 257]⟩ : Shape).Idx → EReal) (e : Fin 800000) (k : Fin 257) :
    Host.gather Cert.KernelIdeal.gather_S50000x257_S800000x1_S800000x257_1_0_n_n_0_1_1257 tbl (srcIdxOf (edgeRow1 ei)) (ix2 e k)
      = tbl (ix2 (src ei e) k) := by
  rw [srcIdx_eq]
  exact gather_rows_apply (by omega) Cert.KernelIdeal.Facts₀.gather_S50000x257_S800000x1_S800000x257_1_0_n_n_0_1_1257_wf tbl _ e k

/-- The reference's gather reads row `src e` of the features. -/
theorem gather_features (e : Fin 800000) (k : Fin 256) :
    val_main_v10 (F := Ideal) x0 ei (ix2 e k) = x0 (ix2 (src ei e) k) := by
  unfold val_main_v10
  exact gather_rows_apply (by omega) Cert.ReferenceIdeal.Facts₀.gather_S50000x256_S800000x1_S800000x256_1_0_n_n_0_1_1256_wf x0 _ e k

/-! ## An edge's weight is its source node's -/

/-- The float pattern of `1.0` denotes the real one. -/
theorem one_f32 : Ideal.ofBits .f32 0x3F800000#32 = 1 := IdealRules.sign_bit.ideal_onePat .f32

/-- Hidden unit `j` on edge `e` is hidden unit `j` of the source node's feature row. -/
theorem edge_hidden (e : Fin 800000) (j : Fin 128) :
    val_main_v15 (F := Ideal) x0 ei x2 x3 (ix2 e j) = AttnMean.hidden x2 x3 (rowOf x0 (src ei e)) j := by
  rw [val_main_v15_apply, val_main_v14_apply, val_main_v11_apply, val_main_v13_apply, val_main_v12_apply,
    val_main_call0_v0_apply, val_main_call0_cst_apply]
  unfold AttnMean.hidden rowOf
  have hs : ∀ d : Fin 256, val_main_v10 (F := Ideal) x0 ei (lidx_main_v11 (ix2 e j) d) * x2 (ridx_main_v11 (ix2 e j) d)
      = x0 (ix2 (src ei e) d) * x2 (ix2 d j) := fun d => by
    have hl : lidx_main_v11 (ix2 e j) d = ix2 e d := funext fun a => Fin.ext (by
      match a with
      | ⟨0, _⟩ => rfl
      | ⟨1, _⟩ => rfl)
    have hr : ridx_main_v11 (ix2 e j) d = ix2 d j := funext fun a => Fin.ext (by
      match a with
      | ⟨0, _⟩ => rfl
      | ⟨1, _⟩ => rfl)
    rw [hl, hr, gather_features]
  have hb : idx_main_v12 (idx_main_v13 (ix2 e j)) = ix1 j := funext fun a => Fin.ext (by
    match a with
    | ⟨0, _⟩ => rfl)
  rw [Finset.sum_congr rfl fun d _ => hs d, hb]
  rfl

/-- The weight of edge `e` is `gate` of the source node's feature row. -/
theorem edge_weight (e : Fin 800000) :
    val_main_v25 (F := Ideal) x0 ei x2 x3 x4 x5 (ix2 e 0) = gate x2 x3 x4 x5 (rowOf x0 (src ei e)) := by
  rw [val_main_v25_apply, val_main_v24_apply, val_main_cst_1_apply, val_main_v23_apply, val_main_v22_apply, val_main_cst_apply,
    val_main_v21_apply, val_main_v20_apply, val_main_v19_apply, val_main_v18_apply, val_main_v17_apply, val_main_v16_apply]
  unfold gate
  have hs : ∀ j : Fin 128, val_main_v15 (F := Ideal) x0 ei x2 x3 (lidx_main_v16 (ix2 e 0) j) * x4 (ridx_main_v16 (ix2 e 0) j)
      = AttnMean.hidden x2 x3 (rowOf x0 (src ei e)) j * x4 (ix2 j 0) := fun j => by
    have hl : lidx_main_v16 (ix2 e 0) j = ix2 e j := funext fun a => Fin.ext (by
      match a with
      | ⟨0, _⟩ => rfl
      | ⟨1, _⟩ => rfl)
    have hr : ridx_main_v16 (ix2 e 0) j = ix2 j 0 := funext fun a => Fin.ext (by
      match a with
      | ⟨0, _⟩ => rfl
      | ⟨1, _⟩ => rfl)
    rw [hl, hr, edge_hidden]
  have hb : idx_main_v17 (idx_main_v18 (ix2 e 0)) = ix1 0 := funext fun a => Fin.ext (by
    match a with
    | ⟨0, _⟩ => rfl)
  rw [Finset.sum_congr rfl fun j _ => hs j, hb]
  simp only [Ideal.hostDivf_def, Ideal.addf_def, Ideal.hostUnary_exp_def, Ideal.hostNegf_def, Ideal.negf_def, Ideal.ofBits_def,
    one_f32, Ideal.logistic]

/-! ## The segment sums -/

/-- Both scatters start from zeros: the same word at every entry. -/
theorem zeros_table (i : (⟨2, ![50000, 257]⟩ : Shape).Idx) :
    broadcastInDim Cert.KernelIdeal.S50000x257 ![] Cert.KernelIdeal.Facts₀.bcast_S_S50000x257
      (constant (F := Ideal) Cert.KernelIdeal.S_ .f32 0x00000000#32) i = Ideal.ofBits .f32 0x00000000#32 :=
  broadcastInDim_apply ![] Cert.KernelIdeal.Facts₀.bcast_S_S50000x257 _ i ix0 (fun a => a.elim0)
theorem zeros_numer (i : (⟨2, ![50000, 256]⟩ : Shape).Idx) :
    val_main_v28 (F := Ideal) i = Ideal.ofBits .f32 0x00000000#32 := by
  rw [val_main_v28_apply, val_main_cst_2_apply]; rfl
theorem zeros_denom (i : (⟨2, ![50000, 1]⟩ : Shape).Idx) :
    val_main_v31 (F := Ideal) i = Ideal.ofBits .f32 0x00000000#32 := by
  rw [val_main_v31_apply, val_main_cst_3_apply]; rfl

end Cert.Bridge

end
-- ==== Proof.SegmentSums.lean ====
import proofs.«179201_j29317446762861_1_alg».proof.Proof.EdgeWeight

/-! # The programs' three scatter-adds read at an index

Each of the three accumulating scatters — the kernel program's, over the `257` columns of the gathered table rows, and
the reference's two, over the `256` feature columns and over the weight column — adds into entry `(v, k)` the updates'
column `k` over the edges whose destination index is `v`. -/

noncomputable section

namespace Cert.Bridge

open Idealize.ShloMosaic Idealize.ShloMosaic.ValueIdx Cert.LibSegmentScatter
open scoped BigOperators

/-- The host's accumulating scatter over the extended reals is the sum it denotes. -/
theorem hostScatterAdd_eq {s si su : Shape} {w : Nat} (d : ScatterDims s si su) (x : FVec Ideal s .f32) (idx : IVec si w)
    (upd : FVec Ideal su .f32) : Host.scatterAdd d x idx upd = Ideal.hostScatterAdd d x idx upd := rfl

/-- The kernel program's scatter has the row scatter's dimension numbers. -/
theorem scatterK_dims : Cert.KernelIdeal.scatter_S50000x257_S800000x1_S800000x257_1_0_0_1
    = rowScatterDims 50000 800000 257 Cert.KernelIdeal.Facts₀.scatter_S50000x257_S800000x1_S800000x257_1_0_0_1_wf := rfl
/-- So have the reference's two. -/
theorem scatterN_dims : Cert.ReferenceIdeal.scatter_S50000x256_S800000x1_S800000x256_1_0_0_1
    = rowScatterDims 50000 800000 256 Cert.ReferenceIdeal.Facts₀.scatter_S50000x256_S800000x1_S800000x256_1_0_0_1_wf := rfl
theorem scatterD_dims : Cert.ReferenceIdeal.scatter_S50000x1_S800000x1_S800000x1_1_0_0_1
    = rowScatterDims 50000 800000 1 Cert.ReferenceIdeal.Facts₀.scatter_S50000x1_S800000x1_S800000x1_1_0_0_1_wf := rfl

/-- The kernel program's segment sums at `(v, k)`. -/
theorem scatterK_apply (x : (⟨2, ![50000, 257]⟩ : Shape).Idx → EReal) (idx : IVec ⟨2, ![800000, 1]⟩ 32)
    (upd : (⟨2, ![800000, 257]⟩ : Shape).Idx → EReal) (v : Fin 50000) (k : Fin 257) :
    Host.scatterAdd (F := Ideal) (φ := .f32) Cert.KernelIdeal.scatter_S50000x257_S800000x1_S800000x257_1_0_0_1 x idx upd (ix2 v k)
      = x (ix2 v k) + ∑ e : Fin 800000, if (idx (ix2 e 0)).toInt = (v.val : ℤ) then upd (ix2 e k) else 0 := by
  rw [hostScatterAdd_eq, scatterK_dims]
  exact scatterAdd_rows_apply _ x idx upd v k

/-- The reference's numerator at `(v, k)`. -/
theorem scatterN_apply (x : (⟨2, ![50000, 256]⟩ : Shape).Idx → EReal) (idx : IVec ⟨2, ![800000, 1]⟩ 32)
    (upd : (⟨2, ![800000, 256]⟩ : Shape).Idx → EReal) (v : Fin 50000) (k : Fin 256) :
    Host.scatterAdd (F := Ideal) (φ := .f32) Cert.ReferenceIdeal.scatter_S50000x256_S800000x1_S800000x256_1_0_0_1 x idx upd (ix2 v k)
      = x (ix2 v k) + ∑ e : Fin 800000, if (idx (ix2 e 0)).toInt = (v.val : ℤ) then upd (ix2 e k) else 0 := by
  rw [hostScatterAdd_eq, scatterN_dims]
  exact scatterAdd_rows_apply _ x idx upd v k

/-- The reference's denominator at `(v, 0)`. -/
theorem scatterD_apply (x : (⟨2, ![50000, 1]⟩ : Shape).Idx → EReal) (idx : IVec ⟨2, ![800000, 1]⟩ 32)
    (upd : (⟨2, ![800000, 1]⟩ : Shape).Idx → EReal) (v : Fin 50000) (k : Fin 1) :
    Host.scatterAdd (F := Ideal) (φ := .f32) Cert.ReferenceIdeal.scatter_S50000x1_S800000x1_S800000x1_1_0_0_1 x idx upd (ix2 v k)
      = x (ix2 v k) + ∑ e : Fin 800000, if (idx (ix2 e 0)).toInt = (v.val : ℤ) then upd (ix2 e k) else 0 := by
  rw [hostScatterAdd_eq, scatterD_dims]
  exact scatterAdd_rows_apply _ x idx upd v k

end Cert.Bridge

end
-- ==== Proof.Bridge.lean ====
import proofs.«179201_j29317446762861_1_alg».proof.Proof.SegmentSums

/-! # The two edge stages are one function of the arguments

Entry by entry the two programs' segment sums agree: an edge's update is row `src e` of the node table, in the feature
columns (`numer_eq`) and in the weight column (`denom_eq`), by `edge_weight`; the quotient that follows is the same
composition of the same operations on both sides (`out_eq`). -/

set_option maxRecDepth 16384

noncomputable section

namespace Cert.Bridge

open Idealize.ShloMosaic Idealize.ShloMosaic.ValueIdx Cert.LibSegmentScatter Cert.AttnMean
open Cert.ReferenceIdeal.Read Cert.KernelIdeal.Tail
open scoped BigOperators

variable (x0 : (⟨2, ![50000, 256]⟩ : Shape).Idx → EReal) (ei : IVec ⟨2, ![2, 800000]⟩ 32)
  (x2 : (⟨2, ![256, 128]⟩ : Shape).Idx → EReal) (x3 : (⟨1, ![128]⟩ : Shape).Idx → EReal)
  (x4 : (⟨2, ![128, 1]⟩ : Shape).Idx → EReal) (x5 : (⟨1, ![1]⟩ : Shape).Idx → EReal)

/-- The feature columns of the kernel program's sums are the reference's numerator. -/
theorem numer_eq :
    numer (sumsOf (table x0 x2 x3 x4 x5) (edgeRow0 ei) (edgeRow1 ei)) = val_main_v30 (F := Ideal) x0 ei x2 x3 x4 x5 := by
  funext i
  obtain ⟨v, k, rfl⟩ : ∃ (v : Fin 50000) (k : Fin 256), i = ix2 v k := ⟨i 0, i 1, eq_ix2 i⟩
  unfold numer
  rw [extractStridedSlice_apply ![0, 0] _ Cert.KernelIdeal.Facts₀.slices_S50000x257_S50000x256_0_0 (ix2 v k)
    (ix2 v (⟨k.val, by have := k.isLt; omega⟩ : Fin 257)) (fun a => by
      match a with
      | ⟨0, _⟩ => show v.val = 0 + v.val; omega
      | ⟨1, _⟩ => show k.val = 0 + k.val; omega)]
  unfold sumsOf val_main_v30
  rw [scatterK_apply, scatterN_apply, dstIdx_eq]
  refine congr (congrArg HAdd.hAdd ?_) (Finset.sum_congr rfl fun e _ => ?_)
  · exact (zeros_table _).trans (zeros_numer _).symm
  by_cases he : (val_main_v29 (F := Ideal) ei (ix2 e 0)).toInt = (v.val : ℤ)
  · rw [if_pos he, if_pos he, gather_table, table_feature, val_main_v27_apply, val_main_v26_apply, gather_features]
    have hi : idx_main_v26 (ix2 e k) = ix2 e 0 := funext fun a => Fin.ext (by
      match a with
      | ⟨0, _⟩ => rfl
      | ⟨1, _⟩ => rfl)
    rw [hi, edge_weight]
    rfl
  · rw [if_neg he, if_neg he]

/-- The weight column of the kernel program's sums is the reference's denominator. -/
theorem denom_eq :
    denom (sumsOf (table x0 x2 x3 x4 x5) (edgeRow0 ei) (edgeRow1 ei)) = val_main_v33 (F := Ideal) x0 ei x2 x3 x4 x5 := by
  funext i
  obtain ⟨v, k, rfl⟩ : ∃ (v : Fin 50000) (k : Fin 1), i = ix2 v k := ⟨i 0, i 1, eq_ix2 i⟩
  obtain rfl : k = 0 := Fin.ext (by have := k.isLt; omega)
  unfold denom
  rw [extractStridedSlice_apply ![0, 256] _ Cert.KernelIdeal.Facts₀.slices_S50000x257_S50000x1_0_256 (ix2 v 0)
    (ix2 v (⟨256, by omega⟩ : Fin 257)) (fun a => by
      match a with
      | ⟨0, _⟩ => show v.val = 0 + v.val; omega
      | ⟨1, _⟩ => show 256 = 256 + 0; omega)]
  unfold sumsOf val_main_v33
  rw [scatterK_apply, scatterD_apply, dstIdx_eq']
  refine congr (congrArg HAdd.hAdd ?_) (Finset.sum_congr rfl fun e _ => ?_)
  · exact (zeros_table _).trans (zeros_denom _).symm
  by_cases he : (val_main_v32 (F := Ideal) ei (ix2 e 0)).toInt = (v.val : ℤ)
  · rw [if_pos he, if_pos he, gather_table, table_weight, edge_weight]
  · rw [if_neg he, if_neg he]

/-! ## The results -/

/-- The reference's result is the weighted mean of its numerator and denominator. -/
theorem ref_mean :
    val_main_v40 (F := Ideal) x0 ei x2 x3 x4 x5
      = mean (val_main_v30 (F := Ideal) x0 ei x2 x3 x4 x5) (val_main_v33 (F := Ideal) x0 ei x2 x3 x4 x5) := by
  unfold val_main_v40 val_main_call1_v1 val_main_v39 val_main_call1_v2 val_main_call1_v0 val_main_cst_6 val_main_v38 val_main_v37
    val_main_v36 val_main_cst_5 val_main_v35 val_main_v34 val_main_cst_4 mean
  rfl

/-- THE BRIDGE: the kernel program's edge stage on the specification's table is the reference's result. -/
theorem out_eq : out (table x0 x2 x3 x4 x5) ei = val_main_v40 (F := Ideal) x0 ei x2 x3 x4 x5 := by
  rw [ref_mean, ← numer_eq, ← denom_eq]
  rfl

end Cert.Bridge

end
-- ==== Proof.lean ====
/- Attention-weighted neighbour mean over a graph's edges: the kernel program against its reference.

   The reference evaluates, per edge `e = (row, col)`, the weight `w = sigmoid (relu (x[col] · W1 + b1) · W2 + b2)` and
   scatter-adds `x[col] · w` (numerator) and `w` (denominator) by `row`; the result is `numerator / max denominator ε`
   where the denominator is positive and `0` elsewhere. The weight depends on the source node alone, so the kernel
   program evaluates it once per node: a pipelined region writes the table `[x[n] · g[n] | g[n]]` of `N` rows and `D + 1`
   columns, and the host gathers the table's rows by `col`, scatter-adds them by `row`, and splits the sums into the
   numerator and the denominator. Over the extended reals both programs compute the same sums of the same terms, so
   the results are equal index by index; no step uses that an input is finite.

   The modules: Spec (the table, index by index), NodeTable and its imports (the region leaves the table),
   EdgeStage and Tail (the host's lines after the region, as functions of the table and the edge list), RunValue (the
   kernel program's run with its result named), LibSegmentScatter (row gathers and accumulating row scatters read at an
   index), Bridge (the two edge stages agree). -/
import proofs.«179201_j29317446762861_1_alg».proof.Defs
import proofs.«179201_j29317446762861_1_alg».proof.Proof.Gen.Kernel
import proofs.«179201_j29317446762861_1_alg».proof.Proof.Gen.Kernel.Skeleton
import proofs.«179201_j29317446762861_1_alg».proof.Proof.Gen.Kernel.Launch
import proofs.«179201_j29317446762861_1_alg».proof.Proof.Gen.Kernel.Points
import proofs.«179201_j29317446762861_1_alg».proof.Proof.Gen.Kernel.Frame
import proofs.«179201_j29317446762861_1_alg».proof.Proof.Gen.KernelIdeal
import proofs.«179201_j29317446762861_1_alg».proof.Proof.Gen.KernelIdeal.Skeleton
import proofs.«179201_j29317446762861_1_alg».proof.Proof.Gen.KernelIdeal.Launch
import proofs.«179201_j29317446762861_1_alg».proof.Proof.Gen.KernelIdeal.Points
import proofs.«179201_j29317446762861_1_alg».proof.Proof.Gen.KernelIdeal.Frame
import proofs.«179201_j29317446762861_1_alg».proof.Proof.Gen.ReferenceIdeal
import proofs.«179201_j29317446762861_1_alg».proof.Proof.Gen.Pre_finite_inputs
import proofs.«179201_j29317446762861_1_alg».proof.Proof.Gen.ReferenceIdeal.Run
import proofs.«179201_j29317446762861_1_alg».proof.Proof.Gen.ReferenceIdeal.Read
import proofs.«179201_j29317446762861_1_alg».proof.Proof.RunValue
import proofs.«179201_j29317446762861_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the edge stage of the node table of the (agreeing) arguments. -/
theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v40_eq, (hagree c).1, (hagree c).2.1, (hagree c).2.2.1, (hagree c).2.2.2.1,
    (hagree c).2.2.2.2.1, (hagree c).2.2.2.2.2]
  exact (Cert.Bridge.out_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
